-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x800000 : Shape := ⟨2, ![2, 800000]⟩
abbrev S800000x3 : Shape := ⟨2, ![800000, 3]⟩
abbrev S9x128x128 : Shape := ⟨3, ![9, 128, 128]⟩
abbrev S5x128x128 : Shape := ⟨3, ![5, 128, 128]⟩
abbrev S5x128 : Shape := ⟨2, ![5, 128]⟩
abbrev S_ : Shape := ⟨0, ![]⟩

class Facts : Prop where
  bcast_S_S9x128x128 : S_.BroadcastsInDim S9x128x128 (![] : Fin 0 → Fin S9x128x128.rank)
  reducesTo_S9x128x128_S_d0_1_2 : S9x128x128.ReducesTo [0, 1, 2] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  main_v18

def fn {F : FTy → Type} [FloatOps F] (main_arg0 : IVec S50000x9 32) (main_arg1 : IVec S2x800000 32) (main_arg2 : IVec S800000x3 32) (main_arg3 : FVec F S9x128x128 .f32) (main_arg4 : FVec F S5x128x128 .f32) (main_arg5 : FVec F S5x128 .f32) (main_arg6 : FVec F S5x128x128 .f32) : IVec S_ 1 :=
  let main_v0 : FVec F S9x128x128 .f32 := Host.absf main_arg3
  let main_cst : FVec F S_ .f32 := constant S_ .f32 0x7F800000#32
  let main_v1 : FVec F S9x128x128 .f32 := broadcastInDim S9x128x128 ![] bcast_S_S9x128x128 main_cst
  let main_v2 : IVec S9x128x128 1 := cmpf .olt main_v0 main_v1
  let main_c : IVec S_ 1 := constantI S_ 1 1#1
  let main_v3 : IVec S_ 1 := (fun x v => Host.reduce IntOp.andi x v reducesTo_S9x128x128_S_d0_1_2 h_S_) main_v2 main_c
  let main_v4 : FVec F S5x128x128 .f32 := Host.absf main_arg4
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg5
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128x128 .f32 := Host.absf main_arg6
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_v13 main_v16
-- ==== Kernel.lean ====
abbrev S50000x9 : Shape := ⟨2, ![50000, 9]⟩
abbrev S2x800000 : Shape := ⟨2, ![2, 800000]⟩
abbrev S800000x3 : Shape := ⟨2, ![800000, 3]⟩
abbrev S9x128x128 : Shape := ⟨3, ![9, 128, 128]⟩
abbrev S5x128x128 : Shape := ⟨3, ![5, 128, 128]⟩
abbrev S5x128 : Shape := ⟨2, ![5, 128]⟩
abbrev S1x800000 : Shape := ⟨2, ![1, 800000]⟩
abbrev S800000 : Shape := ⟨1, ![800000]⟩
abbrev S_ : Shape := ⟨0, ![]⟩
abbrev S9x50000 : Shape := ⟨2, ![9, 50000]⟩
abbrev S9x50000x1 : Shape := ⟨3, ![9, 50000, 1]⟩
abbrev S9x50000x128 : Shape := ⟨3, ![9, 50000, 128]⟩
abbrev S50000x128 : Shape := ⟨2, ![50000, 128]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S51200x128 : Shape := ⟨2, ![51200, 128]⟩
abbrev S2048x128 : Shape := ⟨2, ![2048, 128]⟩

abbrev nBuf : Space → Nat
  | .hbm => 163
  | .vmem => 45
  | .smem => 0
  | _ => 0

abbrev hbmTy0_0 (i : Nat) : BufTy := match i % 128 with
  | 0 => ⟨S50000x9, .i32⟩
  | 1 => ⟨S2x800000, .i32⟩
  | 2 => ⟨S800000x3, .i32⟩
  | 3 => ⟨S9x128x128, .f32⟩
  | 4 => ⟨S5x128x128, .f32⟩
  | 5 => ⟨S5x128, .f32⟩
  | 6 => ⟨S5x128x128, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S50000x9, .i32⟩
  | 13 => ⟨S50000x9, .i1⟩
  | 14 => ⟨S_, .i32⟩
  | 15 => ⟨S50000x9, .i32⟩
  | 16 => ⟨S50000x9, .i32⟩
  | 17 => ⟨S50000x9, .i32⟩
  | 18 => ⟨S9x50000, .i32⟩
  | 19 => ⟨S9x50000x1, .i32⟩
  | 20 => ⟨S9x50000x128, .f32⟩
  | 21 => ⟨S_, .f32⟩
  | 22 => ⟨S50000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S1x128x128, .f32⟩
  | 37 => ⟨S128x128, .f32⟩
  | 38 => ⟨S1x128, .f32⟩
  | 39 => ⟨S128, .f32⟩
  | 40 => ⟨S1x128, .f32⟩
  | 41 => ⟨S1x128x128, .f32⟩
  | 42 => ⟨S128x128, .f32⟩
  | 43 => ⟨S_, .i32⟩
  | 44 => ⟨S_, .f32⟩
  | 45 => ⟨S51200x128, .f32⟩
  | 46 => ⟨S_, .i32⟩
  | 47 => ⟨S_, .f32⟩
  | 48 => ⟨S51200x128, .f32⟩
  | 49 => ⟨S51200x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S1x128x128, .f32⟩
  | 65 => ⟨S128x128, .f32⟩
  | 66 => ⟨S1x128, .f32⟩
  | 67 => ⟨S128, .f32⟩
  | 68 => ⟨S1x128, .f32⟩
  | 69 => ⟨S1x128x128, .f32⟩
  | 70 => ⟨S128x128, .f32⟩
  | 71 => ⟨S_, .i32⟩
  | 72 => ⟨S_, .f32⟩
  | 73 => ⟨S51200x128, .f32⟩
  | 74 => ⟨S_, .i32⟩
  | 75 => ⟨S_, .f32⟩
  | 76 => ⟨S51200x128, .f32⟩
  | 77 => ⟨S51200x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S1x128x128, .f32⟩
  | 98 => ⟨S128x128, .f32⟩
  | 99 => ⟨S_, .i32⟩
  | 100 => ⟨S_, .f32⟩
  | 101 => ⟨S51200x128, .f32⟩
  | 102 => ⟨S_, .i32⟩
  | 103 => ⟨S_, .f32⟩
  | 104 => ⟨S51200x128, .f32⟩
  | 105 => ⟨S51200x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S1x128x128, .f32⟩
  | 121 => ⟨S128x128, .f32⟩
  | 122 => ⟨S1x128, .f32⟩
  | 123 => ⟨S128, .f32⟩
  | 124 => ⟨S1x128, .f32⟩
  | 125 => ⟨S1x128x128, .f32⟩
  | 126 => ⟨S128x128, .f32⟩
  | 127 => ⟨S_, .i32⟩
  | _ => ⟨S50000x9, .i32⟩

abbrev hbmTy0_1 (i : Nat) : BufTy := match i % 128 with
  | 0 => ⟨S_, .f32⟩
  | 1 => ⟨S51200x128, .f32⟩
  | 2 => ⟨S_, .i32⟩
  | 3 => ⟨S_, .f32⟩
  | 4 => ⟨S51200x128, .f32⟩
  | 5 => ⟨S51200x128, .f32⟩
  | 6 => ⟨S50000x128, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S1x128x128, .f32⟩
  | 21 => ⟨S128x128, .f32⟩
  | 22 => ⟨S1x128, .f32⟩
  | 23 => ⟨S128, .f32⟩
  | 24 => ⟨S1x128, .f32⟩
  | 25 => ⟨S1x128x128, .f32⟩
  | 26 => ⟨S128x128, .f32⟩
  | 27 => ⟨S_, .i32⟩
  | 28 => ⟨S_, .f32⟩
  | 29 => ⟨S51200x128, .f32⟩
  | 30 => ⟨S_, .i32⟩
  | 31 => ⟨S_, .f32⟩
  | 32 => ⟨S51200x128, .f32⟩
  | 33 => ⟨S51200x128, .f32⟩
  | 34 => ⟨S50000x128, .f32⟩
  | _ => ⟨S50000x9, .i32⟩

abbrev hbmTy (i : Nat) : BufTy := match i / 128 with
  | 0 => hbmTy0_0 i
  | 1 => hbmTy0_1 i
  | _ => ⟨S50000x9, .i32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S2048x128, .f32⟩
  | .local _ .vmem, ⟨44, _⟩ => ⟨S2048x128, .f32⟩
  | _, _ => ⟨S50000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_call0_v0 : Ref sig .tc := ⟨.hbm, 44, rfl⟩
abbrev main_v30 : Ref sig .tc := ⟨.hbm, 45, rfl⟩
abbrev main_c_5 : Ref sig .tc := ⟨.hbm, 46, rfl⟩
abbrev main_call1_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_call2_v0 : Ref sig .tc := ⟨.hbm, 72, rfl⟩
abbrev main_v51 : Ref sig .tc := ⟨.hbm, 73, rfl⟩
abbrev main_c_10 : Ref sig .tc := ⟨.hbm, 74, rfl⟩
abbrev main_call3_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_call4_v0 : Ref sig .tc := ⟨.hbm, 100, rfl⟩
abbrev main_v72 : Ref sig .tc := ⟨.hbm, 101, rfl⟩
abbrev main_c_15 : Ref sig .tc := ⟨.hbm, 102, rfl⟩
abbrev main_call5_v0 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_19 : Ref sig .tc := ⟨.hbm, 127, rfl⟩
abbrev main_call6_v0 : Ref sig .tc := ⟨.hbm, 128, rfl⟩
abbrev main_v93 : Ref sig .tc := ⟨.hbm, 129, rfl⟩
abbrev main_c_20 : Ref sig .tc := ⟨.hbm, 130, rfl⟩
abbrev main_call7_v0 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_21 : Ref sig .tc := ⟨.hbm, 135, rfl⟩
abbrev main_v97 : Ref sig .tc := ⟨.hbm, 136, rfl⟩
abbrev main_v98 : Ref sig .tc := ⟨.hbm, 137, rfl⟩
abbrev main_c_22 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_23 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_c_24 : Ref sig .tc := ⟨.hbm, 155, rfl⟩
abbrev main_call8_v0 : Ref sig .tc := ⟨.hbm, 156, rfl⟩
abbrev main_v114 : Ref sig .tc := ⟨.hbm, 157, rfl⟩
abbrev main_c_25 : Ref sig .tc := ⟨.hbm, 158, rfl⟩
abbrev main_call9_v0 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2048x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x9 : S_.BroadcastsInDim S50000x9 (![] : Fin 0 → Fin S50000x9.rank)
  transposes_S50000x9_S9x50000_1_0 : S50000x9.Transposes [1, 0] S9x50000
  bcast_S9x50000_S9x50000x1_0_1 : S9x50000.BroadcastsInDim S9x50000x1 (![0, 1] : Fin 2 → Fin S9x50000x1.rank)
  reducesTo_S9x50000x128_S50000x128_d0 : S9x50000x128.ReducesTo [0] S50000x128
  h_S_ : 0 < S_.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  pads_S50000x128_S51200x128_012000_000 : S50000x128.Pads (![0, 0] : Fin 2 → Nat) ![1200, 0] ![0, 0] S51200x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S51200x128_S50000x128_0_0 : S51200x128.Slices ![0, 0] S50000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  gather_S9x128x128_S9x50000x1_S9x50000x128_2_1_0_0_1_2_11128_wf : GatherDims.WF S9x128x128 S9x50000x1 S9x50000x128 [2] [1] [0] [1] [0] 2 ![1, 1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S51200x128.size a
  hwx0_0 : ∀ i : grid0.Coords, EltTy.bits .f32 = 32 ∨ (Rect.block (s := S51200x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S51200x128.size a
  hwx0_1 : ∀ i : grid0.Coords, EltTy.bits .f32 = 32 ∨ (Rect.block (s := S51200x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S51200x128.size a
  hwx0_5 : ∀ i : grid0.Coords, EltTy.bits .f32 = 32 ∨ (Rect.block (s := S51200x128) S2048x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S51200x128.size a
  hwx1_0 : ∀ i : grid1.Coords, EltTy.bits .f32 = 32 ∨ (Rect.block (s := S51200x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S51200x128.size a
  hwx1_1 : ∀ i : grid1.Coords, EltTy.bits .f32 = 32 ∨ (Rect.block (s := S51200x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S51200x128.size a
  hwx1_5 : ∀ i : grid1.Coords, EltTy.bits .f32 = 32 ∨ (Rect.block (s := S51200x128) S2048x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S51200x128.size a
  hwx2_0 : ∀ i : grid2.Coords, EltTy.bits .f32 = 32 ∨ (Rect.block (s := S51200x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S51200x128.size a
  hwx2_1 : ∀ i : grid2.Coords, EltTy.bits .f32 = 32 ∨ (Rect.block (s := S51200x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x128.size a ≤ S51200x128.size a
  hwx2_5 : ∀ i : grid2.Coords, EltTy.bits .f32 = 32 ∨ (Rect.block (s := S51200x128) S2048x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S51200x128.size a
  hwx3_0 : ∀ i : grid3.Coords, EltTy.bits .f32 = 32 ∨ (Rect.block (s := S51200x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S51200x128.size a
  hwx3_1 : ∀ i : grid3.Coords, EltTy.bits .f32 = 32 ∨ (Rect.block (s := S51200x128) S2048x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x128.size a ≤ S51200x128.size a
  hwx3_5 : ∀ i : grid3.Coords, EltTy.bits .f32 = 32 ∨ (Rect.block (s := S51200x128) S2048x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S51200x128.size a
  hwx4_0 : ∀ i : grid4.Coords, EltTy.bits .f32 = 32 ∨ (Rect.block (s := S51200x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S51200x128.size a
  hwx4_1 : ∀ i : grid4.Coords, EltTy.bits .f32 = 32 ∨ (Rect.block (s := S51200x128) S2048x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2048x128.size a ≤ S51200x128.size a
  hwx4_5 : ∀ i : grid4.Coords, EltTy.bits .f32 = 32 ∨ (Rect.block (s := S51200x128) S2048x128.size (cc4_transform_5 i) (hinb4_5 i)).WholeWords (EltTy.packing .f32)

variable [Facts₀]

def gather_S9x128x128_S9x50000x1_S9x50000x128_2_1_0_0_1_2_11128 : GatherDims S9x128x128 S9x50000x1 S9x50000x128 where
  offsetDims := [2]
  collapsedSliceDims := [1]
  operandBatchingDims := [0]
  startIndicesBatchingDims := [0]
  startIndexMap := [1]
  indexVectorDim := 2
  sliceSizes := ![1, 1, 128]
  wf := gather_S9x128x128_S9x50000x1_S9x50000x128_2_1_0_0_1_2_11128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v30) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v72) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S2048x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v93) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v87) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v92) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S2048x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v114) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v115) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v108) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v111) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v113) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v116) S2048x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x9 : Shape := ⟨2, ![50000, 9]⟩
abbrev S2x800000 : Shape := ⟨2, ![2, 800000]⟩
abbrev S800000x3 : Shape := ⟨2, ![800000, 3]⟩
abbrev S9x128x128 : Shape := ⟨3, ![9, 128, 128]⟩
abbrev S5x128x128 : Shape := ⟨3, ![5, 128, 128]⟩
abbrev S5x128 : Shape := ⟨2, ![5, 128]⟩
abbrev S1x800000 : Shape := ⟨2, ![1, 800000]⟩
abbrev S800000 : Shape := ⟨1, ![800000]⟩
abbrev S_ : Shape := ⟨0, ![]⟩
abbrev S9x50000 : Shape := ⟨2, ![9, 50000]⟩
abbrev S9x50000x1 : Shape := ⟨3, ![9, 50000, 1]⟩
abbrev S9x50000x128 : Shape := ⟨3, ![9, 50000, 128]⟩
abbrev S50000x128 : Shape := ⟨2, ![50000, 128]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 148
  | .vmem => 0
  | .smem => 0
  | _ => 0

abbrev hbmTy0_0 (i : Nat) : BufTy := match i % 128 with
  | 0 => ⟨S50000x9, .i32⟩
  | 1 => ⟨S2x800000, .i32⟩
  | 2 => ⟨S800000x3, .i32⟩
  | 3 => ⟨S9x128x128, .f32⟩
  | 4 => ⟨S5x128x128, .f32⟩
  | 5 => ⟨S5x128, .f32⟩
  | 6 => ⟨S5x128x128, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S50000x9, .i32⟩
  | 13 => ⟨S50000x9, .i1⟩
  | 14 => ⟨S_, .i32⟩
  | 15 => ⟨S50000x9, .i32⟩
  | 16 => ⟨S50000x9, .i32⟩
  | 17 => ⟨S50000x9, .i32⟩
  | 18 => ⟨S9x50000, .i32⟩
  | 19 => ⟨S9x50000x1, .i32⟩
  | 20 => ⟨S9x50000x128, .f32⟩
  | 21 => ⟨S_, .f32⟩
  | 22 => ⟨S50000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S1x128x128, .f32⟩
  | 45 => ⟨S128x128, .f32⟩
  | 46 => ⟨S50000x128, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S1x128x128, .f32⟩
  | 62 => ⟨S128x128, .f32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S1x128x128, .f32⟩
  | 70 => ⟨S128x128, .f32⟩
  | 71 => ⟨S50000x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S1x128x128, .f32⟩
  | 87 => ⟨S128x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S50000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S1x128x128, .f32⟩
  | 112 => ⟨S128x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S1x128x128, .f32⟩
  | 120 => ⟨S128x128, .f32⟩
  | 121 => ⟨S50000x128, .f32⟩
  | 122 => ⟨S50000x128, .f32⟩
  | 123 => ⟨S_, .i32⟩
  | 124 => ⟨S800000, .i32⟩
  | 125 => ⟨S800000, .i1⟩
  | 126 => ⟨S_, .i32⟩
  | 127 => ⟨S800000, .i32⟩
  | _ => ⟨S50000x9, .i32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S1x128x128, .f32⟩
  | 9 => ⟨S128x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S1x128x128, .f32⟩
  | 17 => ⟨S128x128, .f32⟩
  | 18 => ⟨S50000x128, .f32⟩
  | 19 => ⟨S50000x128, .f32⟩
  | _ => ⟨S50000x9, .i32⟩

abbrev hbmTy (i : Nat) : BufTy := match i / 128 with
  | 0 => hbmTy0_0 i
  | 1 => hbmTy0_1 i
  | _ => ⟨S50000x9, .i32⟩

abbrev bufTy : (tb : Table) → Fin (tcTables nBuf tb) → BufTy
  | .hbm, ⟨i, _⟩ => hbmTy i
  | _, _ => ⟨S50000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_7 : Ref sig .tc := ⟨.hbm, 73, rfl⟩
abbrev main_v57 : Ref sig .tc := ⟨.hbm, 74, rfl⟩
abbrev main_v58 : Ref sig .tc := ⟨.hbm, 75, rfl⟩
abbrev main_c_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_c_10 : Ref sig .tc := ⟨.hbm, 98, rfl⟩
abbrev main_v79 : Ref sig .tc := ⟨.hbm, 99, rfl⟩
abbrev main_v80 : Ref sig .tc := ⟨.hbm, 100, rfl⟩
abbrev main_c_11 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_12 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_c_13 : Ref sig .tc := ⟨.hbm, 123, rfl⟩
abbrev main_v101 : Ref sig .tc := ⟨.hbm, 124, rfl⟩
abbrev main_v102 : Ref sig .tc := ⟨.hbm, 125, rfl⟩
abbrev main_c_14 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_15 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x9 : S_.BroadcastsInDim S50000x9 (![] : Fin 0 → Fin S50000x9.rank)
  transposes_S50000x9_S9x50000_1_0 : S50000x9.Transposes [1, 0] S9x50000
  bcast_S9x50000_S9x50000x1_0_1 : S9x50000.BroadcastsInDim S9x50000x1 (![0, 1] : Fin 2 → Fin S9x50000x1.rank)
  reducesTo_S9x50000x128_S50000x128_d0 : S9x50000x128.ReducesTo [0] S50000x128
  h_S_ : 0 < S_.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  gather_S9x128x128_S9x50000x1_S9x50000x128_2_1_0_0_1_2_11128_wf : GatherDims.WF S9x128x128 S9x50000x1 S9x50000x128 [2] [1] [0] [1] [0] 2 ![1, 1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S9x128x128_S9x50000x1_S9x50000x128_2_1_0_0_1_2_11128 : GatherDims S9x128x128 S9x50000x1 S9x50000x128 where
  offsetDims := [2]
  collapsedSliceDims := [1]
  operandBatchingDims := [0]
  startIndicesBatchingDims := [0]
  startIndexMap := [1]
  indexVectorDim := 2
  sliceSizes := ![1, 1, 128]
  wf := gather_S9x128x128_S9x50000x1_S9x50000x128_2_1_0_0_1_2_11128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  What both programs compute, as functions of the argument arrays.

  A node's first feature vector is the sum of nine table rows, one per categorical feature (`enc`). One round of
  message passing sends every edge's source row to its destination and adds the arrivals up (`agg`: a gather by
  the edge list's first row, negative indices wrapped, then a scatter-add by its second row), and the node's next
  vector is  agg · W + b + h · R  with that round's two weight matrices and bias row.

  The kernel computes the update on arrays padded with zero rows from 50000 to 51200 rows, 2048 rows at a time, and
  keeps the first 50000 rows (`kstep`); the reference computes it on the unpadded arrays (`rstep`). Everything
  before the update is the same list of host operations in both programs, spelled here once per program because each
  program names its own dimension records.
-/
import proofs.«402210_j23270132810370_3_alg».proof.Proof.Gen.KernelIdeal
import proofs.«402210_j23270132810370_3_alg».proof.Proof.Gen.ReferenceIdeal
import Idealize.ShloMosaic.Lib.ValueIdx

noncomputable section

namespace Cert.Gnn

open Idealize.ShloMosaic Idealize.ShloMosaic.ValueIdx

/-- One entry of a round's update: row `p` of the aggregated messages against column `q` of the relation weights,
    plus the bias entry `q`, plus row `p` of the node vectors against column `q` of the root weights. -/
def entry {M : Nat} (a h : (⟨2, ![M, 128]⟩ : Shape).Idx → EReal) (W R : (⟨2, ![128, 128]⟩ : Shape).Idx → EReal)
    (β : Fin 128 → EReal) (p : Fin M) (q : Fin 128) : EReal :=
  (∑ k : Fin 128, a (ix2 p k) * W (ix2 k q)) + β q + ∑ k : Fin 128, h (ix2 p k) * R (ix2 k q)

/-- The update on the padded arrays, entry by entry; the bias arrives as a one-row matrix. -/
def layerOut (a h : (⟨2, ![51200, 128]⟩ : Shape).Idx → EReal) (W : (⟨2, ![128, 128]⟩ : Shape).Idx → EReal)
    (b1 : (⟨2, ![1, 128]⟩ : Shape).Idx → EReal) (R : (⟨2, ![128, 128]⟩ : Shape).Idx → EReal) :
    (⟨2, ![51200, 128]⟩ : Shape).Idx → EReal :=
  fun j => entry a h W R (fun q => b1 (ix2 (0 : Fin 1) q)) (j 0) (j 1)

end Cert.Gnn

/-! ## The kernel program's host operations -/

namespace Cert.Gnn.K

open Idealize.ShloMosaic Cert.KernelIdeal Cert.KernelIdeal.Facts₀ Cert.KernelIdeal.Facts

variable {F : FTy → Type} [FloatOps F]

/-- The edge list's first row: the source node of every edge. -/
def srcRow (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
/-- The edge list's second row: the destination node of every edge. -/
def dstRow (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- One round's messages summed at their destinations, from the two rows of the edge list. -/
def aggRows (h : (⟨S50000x128, .f32⟩ : BufTy).Contents (Elt F)) (v1 v3 : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 v3)
    (Host.gather gather_S50000x128_S800000x1_S800000x128_1_0_n_n_0_1_1128 h
      (broadcastInDim S800000x1 ![0] bcast_S800000_S800000x1_0
        (select (cmpi .slt v1 (broadcastInDim S800000 ![] bcast_S_S800000 (constantI S_ 32 0#32)))
          (addi v1 (broadcastInDim S800000 ![] bcast_S_S800000 (constantI S_ 32 50000#32))) v1)))

/-- The nine feature tables read at every node's nine categories and summed. -/
def enc (x : (⟨S50000x9, .i32⟩ : BufTy).Contents (Elt F)) (emb : (⟨S9x128x128, .f32⟩ : BufTy).Contents (Elt F)) :
    (⟨S50000x128, .f32⟩ : BufTy).Contents (Elt F) :=
  Host.reduceAdd
    (Host.gather gather_S9x128x128_S9x50000x1_S9x50000x128_2_1_0_0_1_2_11128 emb
      (broadcastInDim S9x50000x1 ![0, 1] bcast_S9x50000_S9x50000x1_0_1
        (transpose S9x50000 [1, 0]
          (select (cmpi .slt x (broadcastInDim S50000x9 ![] bcast_S_S50000x9 (constantI S_ 32 0#32)))
            (addi x (broadcastInDim S50000x9 ![] bcast_S_S50000x9 (constantI S_ 32 128#32))) x)
          transposes_S50000x9_S9x50000_1_0)))
    (constant S_ .f32 0x00000000#32) reducesTo_S9x50000x128_S50000x128_d0 h_S_

/-- An array of 50000 rows with 1200 rows of the converted integer zero under it. -/
def padRows (x : (⟨S50000x128, .f32⟩ : BufTy).Contents (Elt F)) : (⟨S51200x128, .f32⟩ : BufTy).Contents (Elt F) :=
  pad S51200x128 ![0, 0] ![1200, 0] ![0, 0] x (sitofp .f32 (constantI S_ 32 0#32 : (⟨S_, .i32⟩ : BufTy).Contents (Elt F)))
    pads_S50000x128_S51200x128_012000_000 h_S_

/-- The first 50000 rows. -/
def topRows (y : (⟨S51200x128, .f32⟩ : BufTy).Contents (Elt F)) : (⟨S50000x128, .f32⟩ : BufTy).Contents (Elt F) :=
  extractStridedSlice S50000x128 ![0, 0] y slices_S51200x128_S50000x128_0_0

/-- A vector of 128 entries as a one-row matrix: the form the kernel takes a bias in. -/
def oneRow (b : (⟨S128, .f32⟩ : BufTy).Contents (Elt F)) : (⟨S1x128, .f32⟩ : BufTy).Contents (Elt F) :=
  shapeCast S1x128 b shapeCasts_S128_S1x128

/-- Round 0's relation weights: matrix 0 of the stack. -/
def wAt0 (a : (⟨S5x128x128, .f32⟩ : BufTy).Contents (Elt F)) : (⟨S128x128, .f32⟩ : BufTy).Contents (Elt F) :=
  shapeCast S128x128 (extractStridedSlice S1x128x128 ![0, 0, 0] a slices_S5x128x128_S1x128x128_0_0_0) shapeCasts_S1x128x128_S128x128
/-- Round 0's bias: row 0 of the stack, as a vector. -/
def bVec0 (a : (⟨S5x128, .f32⟩ : BufTy).Contents (Elt F)) : (⟨S128, .f32⟩ : BufTy).Contents (Elt F) :=
  shapeCast S128 (extractStridedSlice S1x128 ![0, 0] a slices_S5x128_S1x128_0_0) shapeCasts_S1x128_S128

/-- Round 1's relation weights: matrix 1 of the stack. -/
def wAt1 (a : (⟨S5x128x128, .f32⟩ : BufTy).Contents (Elt F)) : (⟨S128x128, .f32⟩ : BufTy).Contents (Elt F) :=
  shapeCast S128x128 (extractStridedSlice S1x128x128 ![1, 0, 0] a slices_S5x128x128_S1x128x128_1_0_0) shapeCasts_S1x128x128_S128x128
/-- Round 1's bias: row 1 of the stack, as a vector. -/
def bVec1 (a : (⟨S5x128, .f32⟩ : BufTy).Contents (Elt F)) : (⟨S128, .f32⟩ : BufTy).Contents (Elt F) :=
  shapeCast S128 (extractStridedSlice S1x128 ![1, 0] a slices_S5x128_S1x128_1_0) shapeCasts_S1x128_S128

/-- Round 2's relation weights: matrix 2 of the stack. -/
def wAt2 (a : (⟨S5x128x128, .f32⟩ : BufTy).Contents (Elt F)) : (⟨S128x128, .f32⟩ : BufTy).Contents (Elt F) :=
  shapeCast S128x128 (extractStridedSlice S1x128x128 ![2, 0, 0] a slices_S5x128x128_S1x128x128_2_0_0) shapeCasts_S1x128x128_S128x128
/-- Round 2's bias: row 2 of the stack, as a vector. -/
def bVec2 (a : (⟨S5x128, .f32⟩ : BufTy).Contents (Elt F)) : (⟨S128, .f32⟩ : BufTy).Contents (Elt F) :=
  shapeCast S128 (extractStridedSlice S1x128 ![2, 0] a slices_S5x128_S1x128_2_0) shapeCasts_S1x128_S128

/-- Round 3's relation weights: matrix 3 of the stack. -/
def wAt3 (a : (⟨S5x128x128, .f32⟩ : BufTy).Contents (Elt F)) : (⟨S128x128, .f32⟩ : BufTy).Contents (Elt F) :=
  shapeCast S128x128 (extractStridedSlice S1x128x128 ![3, 0, 0] a slices_S5x128x128_S1x128x128_3_0_0) shapeCasts_S1x128x128_S128x128
/-- Round 3's bias: row 3 of the stack, as a vector. -/
def bVec3 (a : (⟨S5x128, .f32⟩ : BufTy).Contents (Elt F)) : (⟨S128, .f32⟩ : BufTy).Contents (Elt F) :=
  shapeCast S128 (extractStridedSlice S1x128 ![3, 0] a slices_S5x128_S1x128_3_0) shapeCasts_S1x128_S128

/-- Round 4's relation weights: matrix 4 of the stack. -/
def wAt4 (a : (⟨S5x128x128, .f32⟩ : BufTy).Contents (Elt F)) : (⟨S128x128, .f32⟩ : BufTy).Contents (Elt F) :=
  shapeCast S128x128 (extractStridedSlice S1x128x128 ![4, 0, 0] a slices_S5x128x128_S1x128x128_4_0_0) shapeCasts_S1x128x128_S128x128
/-- Round 4's bias: row 4 of the stack, as a vector. -/
def bVec4 (a : (⟨S5x128, .f32⟩ : BufTy).Contents (Elt F)) : (⟨S128, .f32⟩ : BufTy).Contents (Elt F) :=
  shapeCast S128 (extractStridedSlice S1x128 ![4, 0] a slices_S5x128_S1x128_4_0) shapeCasts_S1x128_S128

/-- One round as the kernel program computes it: aggregate, pad both operands with zero rows, update every padded
    row, keep the first 50000. -/
def kstep (h : (⟨S50000x128, .f32⟩ : BufTy).Contents (Elt Ideal)) (v1 v3 : (⟨S800000, .i32⟩ : BufTy).Contents (Elt Ideal))
    (W : (⟨S128x128, .f32⟩ : BufTy).Contents (Elt Ideal)) (b : (⟨S128, .f32⟩ : BufTy).Contents (Elt Ideal))
    (R : (⟨S128x128, .f32⟩ : BufTy).Contents (Elt Ideal)) : (⟨S50000x128, .f32⟩ : BufTy).Contents (Elt Ideal) :=
  topRows (Cert.Gnn.layerOut (padRows (aggRows h v1 v3)) (padRows h) W (oneRow b) R)

/-- The kernel program's result: the encoder, then five rounds, each with its own slice of the three weight stacks
    (the relation and root weights share the matrix slicing). -/
def kval (x : (⟨S50000x9, .i32⟩ : BufTy).Contents (Elt Ideal)) (e : (⟨S2x800000, .i32⟩ : BufTy).Contents (Elt Ideal))
    (emb : (⟨S9x128x128, .f32⟩ : BufTy).Contents (Elt Ideal)) (a4 : (⟨S5x128x128, .f32⟩ : BufTy).Contents (Elt Ideal))
    (a5 : (⟨S5x128, .f32⟩ : BufTy).Contents (Elt Ideal)) (a6 : (⟨S5x128x128, .f32⟩ : BufTy).Contents (Elt Ideal)) :
    (⟨S50000x128, .f32⟩ : BufTy).Contents (Elt Ideal) :=
  kstep (kstep (kstep (kstep (kstep (enc x emb) (srcRow e) (dstRow e) (wAt0 a4) (bVec0 a5) (wAt0 a6))
    (srcRow e) (dstRow e) (wAt1 a4) (bVec1 a5) (wAt1 a6))
    (srcRow e) (dstRow e) (wAt2 a4) (bVec2 a5) (wAt2 a6))
    (srcRow e) (dstRow e) (wAt3 a4) (bVec3 a5) (wAt3 a6))
    (srcRow e) (dstRow e) (wAt4 a4) (bVec4 a5) (wAt4 a6)

end Cert.Gnn.K

/-! ## The reference program's host operations: the same list under that program's own names -/

namespace Cert.Gnn.R

open Idealize.ShloMosaic Cert.ReferenceIdeal Cert.ReferenceIdeal.Facts₀ Cert.ReferenceIdeal.Facts

variable {F : FTy → Type} [FloatOps F]

/-- The edge list's first row. -/
def srcRow (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
/-- The edge list's second row. -/
def dstRow (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- One round's messages summed at their destinations. -/
def aggRows (h : (⟨S50000x128, .f32⟩ : BufTy).Contents (Elt F)) (v1 v3 : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 v3)
    (Host.gather gather_S50000x128_S800000x1_S800000x128_1_0_n_n_0_1_1128 h
      (broadcastInDim S800000x1 ![0] bcast_S800000_S800000x1_0
        (select (cmpi .slt v1 (broadcastInDim S800000 ![] bcast_S_S800000 (constantI S_ 32 0#32)))
          (addi v1 (broadcastInDim S800000 ![] bcast_S_S800000 (constantI S_ 32 50000#32))) v1)))

/-- The nine feature tables read at every node's nine categories and summed. -/
def enc (x : (⟨S50000x9, .i32⟩ : BufTy).Contents (Elt F)) (emb : (⟨S9x128x128, .f32⟩ : BufTy).Contents (Elt F)) :
    (⟨S50000x128, .f32⟩ : BufTy).Contents (Elt F) :=
  Host.reduceAdd
    (Host.gather gather_S9x128x128_S9x50000x1_S9x50000x128_2_1_0_0_1_2_11128 emb
      (broadcastInDim S9x50000x1 ![0, 1] bcast_S9x50000_S9x50000x1_0_1
        (transpose S9x50000 [1, 0]
          (select (cmpi .slt x (broadcastInDim S50000x9 ![] bcast_S_S50000x9 (constantI S_ 32 0#32)))
            (addi x (broadcastInDim S50000x9 ![] bcast_S_S50000x9 (constantI S_ 32 128#32))) x)
          transposes_S50000x9_S9x50000_1_0)))
    (constant S_ .f32 0x00000000#32) reducesTo_S9x50000x128_S50000x128_d0 h_S_

/-- Round 0's relation weights: matrix 0 of the stack. -/
def wAt0 (a : (⟨S5x128x128, .f32⟩ : BufTy).Contents (Elt F)) : (⟨S128x128, .f32⟩ : BufTy).Contents (Elt F) :=
  shapeCast S128x128 (extractStridedSlice S1x128x128 ![0, 0, 0] a slices_S5x128x128_S1x128x128_0_0_0) shapeCasts_S1x128x128_S128x128
/-- Round 0's bias: row 0 of the stack, as a vector. -/
def bVec0 (a : (⟨S5x128, .f32⟩ : BufTy).Contents (Elt F)) : (⟨S128, .f32⟩ : BufTy).Contents (Elt F) :=
  shapeCast S128 (extractStridedSlice S1x128 ![0, 0] a slices_S5x128_S1x128_0_0) shapeCasts_S1x128_S128

/-- Round 1's relation weights: matrix 1 of the stack. -/
def wAt1 (a : (⟨S5x128x128, .f32⟩ : BufTy).Contents (Elt F)) : (⟨S128x128, .f32⟩ : BufTy).Contents (Elt F) :=
  shapeCast S128x128 (extractStridedSlice S1x128x128 ![1, 0, 0] a slices_S5x128x128_S1x128x128_1_0_0) shapeCasts_S1x128x128_S128x128
/-- Round 1's bias: row 1 of the stack, as a vector. -/
def bVec1 (a : (⟨S5x128, .f32⟩ : BufTy).Contents (Elt F)) : (⟨S128, .f32⟩ : BufTy).Contents (Elt F) :=
  shapeCast S128 (extractStridedSlice S1x128 ![1, 0] a slices_S5x128_S1x128_1_0) shapeCasts_S1x128_S128

/-- Round 2's relation weights: matrix 2 of the stack. -/
def wAt2 (a : (⟨S5x128x128, .f32⟩ : BufTy).Contents (Elt F)) : (⟨S128x128, .f32⟩ : BufTy).Contents (Elt F) :=
  shapeCast S128x128 (extractStridedSlice S1x128x128 ![2, 0, 0] a slices_S5x128x128_S1x128x128_2_0_0) shapeCasts_S1x128x128_S128x128
/-- Round 2's bias: row 2 of the stack, as a vector. -/
def bVec2 (a : (⟨S5x128, .f32⟩ : BufTy).Contents (Elt F)) : (⟨S128, .f32⟩ : BufTy).Contents (Elt F) :=
  shapeCast S128 (extractStridedSlice S1x128 ![2, 0] a slices_S5x128_S1x128_2_0) shapeCasts_S1x128_S128

/-- Round 3's relation weights: matrix 3 of the stack. -/
def wAt3 (a : (⟨S5x128x128, .f32⟩ : BufTy).Contents (Elt F)) : (⟨S128x128, .f32⟩ : BufTy).Contents (Elt F) :=
  shapeCast S128x128 (extractStridedSlice S1x128x128 ![3, 0, 0] a slices_S5x128x128_S1x128x128_3_0_0) shapeCasts_S1x128x128_S128x128
/-- Round 3's bias: row 3 of the stack, as a vector. -/
def bVec3 (a : (⟨S5x128, .f32⟩ : BufTy).Contents (Elt F)) : (⟨S128, .f32⟩ : BufTy).Contents (Elt F) :=
  shapeCast S128 (extractStridedSlice S1x128 ![3, 0] a slices_S5x128_S1x128_3_0) shapeCasts_S1x128_S128

/-- Round 4's relation weights: matrix 4 of the stack. -/
def wAt4 (a : (⟨S5x128x128, .f32⟩ : BufTy).Contents (Elt F)) : (⟨S128x128, .f32⟩ : BufTy).Contents (Elt F) :=
  shapeCast S128x128 (extractStridedSlice S1x128x128 ![4, 0, 0] a slices_S5x128x128_S1x128x128_4_0_0) shapeCasts_S1x128x128_S128x128
/-- Round 4's bias: row 4 of the stack, as a vector. -/
def bVec4 (a : (⟨S5x128, .f32⟩ : BufTy).Contents (Elt F)) : (⟨S128, .f32⟩ : BufTy).Contents (Elt F) :=
  shapeCast S128 (extractStridedSlice S1x128 ![4, 0] a slices_S5x128_S1x128_4_0) shapeCasts_S1x128_S128

/-- One round as the reference computes it: two whole matrix products and the bias laid along every row. -/
def rstep (h : (⟨S50000x128, .f32⟩ : BufTy).Contents (Elt F)) (v1 v3 : (⟨S800000, .i32⟩ : BufTy).Contents (Elt F))
    (W : (⟨S128x128, .f32⟩ : BufTy).Contents (Elt F)) (b : (⟨S128, .f32⟩ : BufTy).Contents (Elt F))
    (R : (⟨S128x128, .f32⟩ : BufTy).Contents (Elt F)) : (⟨S50000x128, .f32⟩ : BufTy).Contents (Elt F) :=
  addf (addf (Host.dotGeneral dot_S50000x128_S128x128_S50000x128_1_0_0_1_n_n none (aggRows h v1 v3) W)
      (broadcastInDim S50000x128 ![0, 1] bcast_S1x128_S50000x128_0_1 (broadcastInDim S1x128 ![1] bcast_S128_S1x128_1 b)))
    (Host.dotGeneral dot_S50000x128_S128x128_S50000x128_1_0_0_1_n_n none h R)

/-- The reference's result: the encoder, then five rounds. -/
def rval (x : (⟨S50000x9, .i32⟩ : BufTy).Contents (Elt F)) (e : (⟨S2x800000, .i32⟩ : BufTy).Contents (Elt F))
    (emb : (⟨S9x128x128, .f32⟩ : BufTy).Contents (Elt F)) (a4 : (⟨S5x128x128, .f32⟩ : BufTy).Contents (Elt F))
    (a5 : (⟨S5x128, .f32⟩ : BufTy).Contents (Elt F)) (a6 : (⟨S5x128x128, .f32⟩ : BufTy).Contents (Elt F)) :
    (⟨S50000x128, .f32⟩ : BufTy).Contents (Elt F) :=
  rstep (rstep (rstep (rstep (rstep (enc x emb) (srcRow e) (dstRow e) (wAt0 a4) (bVec0 a5) (wAt0 a6))
    (srcRow e) (dstRow e) (wAt1 a4) (bVec1 a5) (wAt1 a6))
    (srcRow e) (dstRow e) (wAt2 a4) (bVec2 a5) (wAt2 a6))
    (srcRow e) (dstRow e) (wAt3 a4) (bVec3 a5) (wAt3 a6))
    (srcRow e) (dstRow e) (wAt4 a4) (bVec4 a5) (wAt4 a6)

end Cert.Gnn.R

end
-- ==== Proof.LibPlainRows.lean ====
/-
  Plain matrix products, a bias row, and the leaky rectifier, read one entry at a time at the ideal values.

  * A product of an m×k by a k×n matrix that contracts the left operand's last axis with the right operand's
    first, read at (a, b), is the sum over c of left (a, c) · right (c, b) — for the host's product and for a
    kernel's product accumulated into the zero splat alike (`dotGeneral_rows_apply`, `matmul_zero_rows_apply`).
    The dimension record is any one that EQUALS the plain record; at a literal record that equation is `rfl`.
  * A vector of n entries laid along every row of an m×n matrix, read at (p, q), is the vector's entry q: the
    kernel spells it as a broadcast of the vector's one-row cast (`rowCast_broadcast_apply`), the host as two
    broadcasts in dimensions (`rowBroadcast_apply`).
  * The leaky rectifier `h ↦ h` where the test holds, `slope · h` elsewhere, gives the same value whether the test
    is `h > 0` or `h ≥ 0`: the two tests differ at `h = 0` only, where `slope · 0 = 0 = h`. No finiteness is used:
    at `⊤` and `⊥` both tests agree.
-/
import Idealize.ShloMosaic.Lib.StackMember

noncomputable section

namespace Idealize.ShloMosaic.PlainRows

open Idealize.ShloMosaic Idealize.ShloMosaic.ValueIdx

/-! ## Products -/

/-- The host's product over a record equal to the plain one, at (a, b): the sum over the contracted coordinate. -/
theorem dotGeneral_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into the zero splat over such a record, at (a, b): the same sum. -/
theorem matmul_zero_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  rw [matmul_zero_eq_dotGeneral]
  exact dotGeneral_rows_apply d hd prec A B a b

/-! ## A vector along every row -/

section Rows
variable {α : Type}

/-- The kernel's spelling: the vector cast to one row, broadcast down m rows; at (p, q) it is entry q. -/
theorem rowCast_broadcast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 into one row, that row broadcast down m rows; at
    (p, q) it is entry q. -/
theorem rowBroadcast_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (p : Fin m) (q : Fin n) :
    broadcastInDim ⟨2, ![m, n]⟩ ![0, 1] hbc (broadcastInDim ⟨2, ![1, n]⟩ ![1] hd x) (ix2 p q) = x (ix1 q) := by
  rw [broadcastInDim_oneRow_apply hbc _ p q]
  refine broadcastInDim_apply ![1] hd x (ix2 (0 : Fin 1) q) (ix1 q) ?_
  intro a
  match a with
  | ⟨0, _⟩ =>
    show q.val = if n = 1 then 0 else q.val
    split
    · have := q.isLt; omega
    · rfl

end Rows

/-! ## The leaky rectifier -/

/-- The leaky rectifier with the STRICT test: `h` above zero, `s · h` elsewhere. -/
def leaky (s h : EReal) : EReal := if 0 < h then h else s * h

/-- With the test `0 ≤ h` the value is the same: at `h = 0` the other branch is `s · 0 = 0`. -/
theorem leaky_of_le_test (s h : EReal) : (if 0 ≤ h then h else s * h) = leaky s h := by
  unfold leaky
  by_cases h0 : 0 < h
  · rw [if_pos h0, if_pos h0.le]
  · by_cases h1 : 0 ≤ h
    · have e : h = 0 := le_antisymm (not_lt.mp h0) h1
      rw [if_pos h1, if_neg h0, e, mul_zero]
    · rw [if_neg h1, if_neg h0]

/-- A select on the ordered comparison `h > z`, for a pattern `z` that denotes zero. -/
theorem select_ogt {φ : FTy} (z : BitVec φ.bits) (hz : Ideal.ofBits φ z = 0) (h a b : Ideal φ) :
    Scalar.select (FloatOps.cmpf .ogt h (Scalar.ofBits (F := Ideal) φ z)) a b = if 0 < h then a else b := by
  show Scalar.select (Ideal.cmp .ogt h (Ideal.ofBits φ z)) a b = _
  rw [hz]
  unfold Scalar.select Ideal.cmp
  by_cases h0 : (0 : EReal) < h <;> simp [h0]

/-- A select on the ordered comparison `h ≥ z`, for a pattern `z` that denotes zero. -/
theorem select_oge {φ : FTy} (z : BitVec φ.bits) (hz : Ideal.ofBits φ z = 0) (h a b : Ideal φ) :
    Scalar.select (FloatOps.cmpf .oge h (Scalar.ofBits (F := Ideal) φ z)) a b = if 0 ≤ h then a else b := by
  show Scalar.select (Ideal.cmp .oge h (Ideal.ofBits φ z)) a b = _
  rw [hz]
  unfold Scalar.select Ideal.cmp
  by_cases h0 : (0 : EReal) ≤ h <;> simp [h0]

/-- The kernel's rectifier at one entry: a select on `h > 0` between `h` and `s · h`. -/
theorem select_ogt_leaky (s : BitVec 32) (h : Ideal .f32) :
    Scalar.select (FloatOps.cmpf .ogt h (Scalar.ofBits (F := Ideal) .f32 0x00000000#32)) h
      (Scalar.ofBits (F := Ideal) .f32 s * h) = leaky (Ideal.ofBits .f32 s) h :=
  select_ogt _ Ideal.ofBits_zero_f32 h _ _

/-- The host's rectifier at one entry: a select on `h ≥ 0` between `h` and `s · h`: the same value. -/
theorem select_oge_leaky (s : BitVec 32) (h : Ideal .f32) :
    Scalar.select (FloatOps.cmpf .oge h (Scalar.ofBits (F := Ideal) .f32 0x00000000#32)) h
      (Scalar.ofBits (F := Ideal) .f32 s * h) = leaky (Ideal.ofBits .f32 s) h :=
  (select_oge _ Ideal.ofBits_zero_f32 h _ _).trans (leaky_of_le_test _ h)

end Idealize.ShloMosaic.PlainRows

end
-- ==== Proof.Region0.lean ====
/-
  What kernel region 0 leaves in its output array, as a function of the five arrays it reads.

  The region walks 25 grid points. At point t it reads rows 2048·t … 2048·t + 2047 of its two row-blocked operands
  and the three small operands whole, and writes rows 2048·t … 2048·t + 2047 of the output: entry (p, q) of the
  written block is  Σ_k x0(p,k)·W(k,q) + b(0,q) + Σ_k x1(p,k)·R(k,q)  (the two products accumulate into a zero
  splat, so each is the plain sum; the format changes in front of them are the identity on the extended reals). The
  25 blocks tile the 51200 rows, so the whole output array is `Cert.Gnn.layerOut` of the five input arrays.
-/
import proofs.«402210_j23270132810370_3_alg».proof.Proof.Gen.KernelIdeal.Frame
import proofs.«402210_j23270132810370_3_alg».proof.Proof.Spec
import proofs.«402210_j23270132810370_3_alg».proof.Proof.LibPlainRows
import Idealize.ShloMosaic.Lib.Pipeline.Value
import Idealize.ShloMosaic.Lib.KernelVsHost

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The body's stored value at (p, q): two plain sums over the contracted coordinate and the bias row's entry. -/
theorem pay_apply (x0 x1 : Vec Ideal S2048x128 .f32) (x2 x4 : Vec Ideal S128x128 .f32) (x3 : Vec Ideal S1x128 .f32)
    (p : Fin 2048) (q : Fin 128) :
    k0_pay1 x0 x1 x2 x4 x3 (ix2 p q) = Cert.Gnn.entry x0 x1 x2 x4 (fun q => x3 (ix2 (0 : Fin 1) q)) p q := by
  unfold k0_pay1 Cert.Gnn.entry
  dsimp only
  rw [addf_apply, addf_apply]
  simp only [shapeCast_self]
  rw [PlainRows.matmul_zero_rows_apply dot_S2048x128_S128x128_S2048x128_1_0_0_1_n_n rfl none _ _ p q,
    PlainRows.matmul_zero_rows_apply dot_S2048x128_S128x128_S2048x128_1_0_0_1_n_n rfl none _ _ p q,
    broadcastTo_apply x3 broadcasts_S1x128_S2048x128 (ix2 p q) (ix2 (0 : Fin 1) q) (by
      intro a
      match a with
      | ⟨0, _⟩ => rfl
      | ⟨1, _⟩ => rfl)]
  rfl

/-- A written block against the whole-array function: if the block's two row operands are rows T·2048 … of the
    arrays `A`, `H` and its three small operands are the arrays `W`, `b1`, `R`, then the block's entry `j` is
    `layerOut`'s entry at the array index with row T·2048 + j₀ and column j₁. -/
theorem block_entry (x0 x1 : Vec Ideal S2048x128 .f32) (x2 x4 : Vec Ideal S128x128 .f32) (x3 : Vec Ideal S1x128 .f32)
    (A H : S51200x128.Idx → EReal) (W : S128x128.Idx → EReal) (b1 : S1x128.Idx → EReal) (R : S128x128.Idx → EReal)
    (T : Nat) (hT : T * 2048 + 2048 ≤ 51200)
    (h0 : ∀ (p : Fin 2048) (k : Fin 128), x0 (ix2 p k) = A (ix2 (⟨T * 2048 + p.val, by have := p.isLt; omega⟩ : Fin 51200) k))
    (h1 : ∀ (p : Fin 2048) (k : Fin 128), x1 (ix2 p k) = H (ix2 (⟨T * 2048 + p.val, by have := p.isLt; omega⟩ : Fin 51200) k))
    (h2 : x2 = W) (h3 : x3 = b1) (h4 : x4 = R)
    (j : S2048x128.Idx) (i : S51200x128.Idx) (hi0 : (i 0).val = T * 2048 + (j 0).val) (hi1 : (i 1).val = (j 1).val) :
    k0_pay1 x0 x1 x2 x4 x3 j = Cert.Gnn.layerOut A H W b1 R i := by
  subst h2 h3 h4
  obtain ⟨p, q, rfl⟩ : ∃ (p : Fin 2048) (q : Fin 128), j = ix2 p q := ⟨j 0, j 1, eq_ix2 j⟩
  rw [pay_apply]
  have ei0 : i 0 = (⟨T * 2048 + p.val, by have := p.isLt; omega⟩ : Fin 51200) := Fin.ext hi0
  have ei1 : i 1 = q := Fin.ext hi1
  unfold Cert.Gnn.layerOut Cert.Gnn.entry
  rw [ei0, ei1]
  simp only [h0, h1]

/-! ## The region: blocks, cover, value -/

variable (V : (c : Dev nD) → (b : Ref sig .tc) → Buf (Elt Ideal) ((c : Thread nD τ).loc b))

/-- The printed index maps, decided over the 25 points: the two row operands and the output move down one block of
    rows per point; the three small operands stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 2048·t … of its array: entry (p, k) of the block is entry (2048·t + p, k). -/
theorem read0 (c : Dev nD) (t : Fin cfg0.N) (p : Fin 2048) (k : Fin 128) :
    iblk0 V c 0 t (ix2 p k)
      = V c main_v30 (ix2 (⟨t.val * 2048 + p.val, by have := lt_of_lt_of_eq t.isLt N_0; have := p.isLt; omega⟩ : Fin 51200) k) := by
  have e := idx_facts t
  show V c main_v30 (((cfg0.win 0).blk t).view.emb (ix2 p k)) = _
  refine congrArg (V c main_v30) ?_
  funext a; apply Fin.ext
  match a with
  | ⟨0, _⟩ => show win0_0.index t (0 : Fin 2) * 2048 + 1 * p.val = t.val * 2048 + p.val; omega
  | ⟨1, _⟩ => show win0_0.index t (1 : Fin 2) * 128 + 1 * k.val = k.val; omega

/-- Window 1's block at point t is rows 2048·t … of its array: entry (p, k) of the block is entry (2048·t + p, k). -/
theorem read1 (c : Dev nD) (t : Fin cfg0.N) (p : Fin 2048) (k : Fin 128) :
    iblk0 V c 1 t (ix2 p k)
      = V c main_v31 (ix2 (⟨t.val * 2048 + p.val, by have := lt_of_lt_of_eq t.isLt N_0; have := p.isLt; omega⟩ : Fin 51200) k) := by
  have e := idx_facts t
  show V c main_v31 (((cfg0.win 1).blk t).view.emb (ix2 p k)) = _
  refine congrArg (V c main_v31) ?_
  funext a; apply Fin.ext
  match a with
  | ⟨0, _⟩ => show win0_1.index t (0 : Fin 2) * 2048 + 1 * p.val = t.val * 2048 + p.val; omega
  | ⟨1, _⟩ => show win0_1.index t (1 : Fin 2) * 128 + 1 * k.val = k.val; omega

/-- Window 2's block at any point is its whole array: the index map is constantly (0, 0). -/
theorem read2 (c : Dev nD) (t : Fin cfg0.N) : iblk0 V c 2 t = V c main_v24 := by
  have e := idx_facts t
  funext y
  show V c main_v24 (((cfg0.win 2).blk t).view.emb y) = V c main_v24 y
  refine congrArg (V c main_v24) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block at any point is its whole array: the index map is constantly (0, 0). -/
theorem read3 (c : Dev nD) (t : Fin cfg0.N) : iblk0 V c 3 t = V c main_v27 := by
  have e := idx_facts t
  funext y
  show V c main_v27 (((cfg0.win 3).blk t).view.emb y) = V c main_v27 y
  refine congrArg (V c main_v27) ?_
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's block at any point is its whole array: the index map is constantly (0, 0). -/
theorem read4 (c : Dev nD) (t : Fin cfg0.N) : iblk0 V c 4 t = V c main_v29 := by
  have e := idx_facts t
  funext y
  show V c main_v29 (((cfg0.win 4).blk t).view.emb y) = V c main_v29 y
  refine congrArg (V c main_v29) ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- What point t writes back is block t of `layerOut` of the five arrays as the region finds them. -/
theorem flushed_eq (c : Dev nD) (t : Fin cfg0.N) :
    (dat0 V c).flushed 5 t = ((cfg0.win 5).blk t).view.read (Elt Ideal)
      (Cert.Gnn.layerOut (V c main_v30) (V c main_v31) (V c main_v24) (V c main_v27) (V c main_v29)) := by
  show (cfg0.win 5).cut (grid0.coords t) ((dat0 V c).after 5 t) = _
  rw [after0_5]
  unfold out0_5
  rw [View.canon_unit_zero hz]
  simp only [View.ld_unit_zero (S := S2048x128) hz, View.ld_unit_zero (S := S128x128) hz, View.ld_unit_zero (S := S1x128) hz]
  have hN : t.val < 25 := lt_of_lt_of_eq t.isLt N_0
  have e := idx_facts t
  funext j
  show k0_pay1 (iblk0 V c 0 t) (iblk0 V c 1 t) (iblk0 V c 2 t) (iblk0 V c 4 t) (iblk0 V c 3 t) j
    = Cert.Gnn.layerOut (V c main_v30) (V c main_v31) (V c main_v24) (V c main_v27) (V c main_v29) (((cfg0.win 5).blk t).view.emb j)
  exact block_entry (iblk0 V c 0 t) (iblk0 V c 1 t) (iblk0 V c 2 t) (iblk0 V c 4 t) (iblk0 V c 3 t)
    (V c main_v30) (V c main_v31) (V c main_v24) (V c main_v27) (V c main_v29) t.val (by omega)
    (read0 V c t) (read1 V c t) (read2 V c t) (read3 V c t) (read4 V c t) j (((cfg0.win 5).blk t).view.emb j)
    (by show win0_5.index t (0 : Fin 2) * 2048 + 1 * (j 0).val = t.val * 2048 + (j 0).val; omega)
    (by show win0_5.index t (1 : Fin 2) * 128 + 1 * (j 1).val = (j 1).val; omega)

/-- An index of the output array is in point t's block iff each coordinate is in the block's range on its axis. -/
theorem mem_blk (t : Fin cfg0.N) (i : S51200x128.Idx) :
    i ∈ ((cfg0.win 5).blk t).view.set ↔ ∀ a : Fin 2, win0_5.index t a * S2048x128.size a ≤ (i a).val
      ∧ (i a).val < win0_5.index t a * S2048x128.size a + S2048x128.size a := by
  show i ∈ ((View.whole main_v32).slice (win0_5.rect t)).set ↔ _
  rw [View.set_slice_whole, Rect.mem_set_unit]
  exact Iff.rfl

/-- Every index of the output array is in the block of the point its row falls in: row r is in block r / 2048. -/
theorem cover (i : S51200x128.Idx) :
    ∃ t : Fin cfg0.N, (cfg0.win 5).flush t = true ∧ i ∈ ((cfg0.win 5).blk t).view.set := by
  have hi0 : (i 0).val < 51200 := (i 0).isLt
  have hi1 : (i 1).val < 128 := (i 1).isLt
  have hlt : (i 0).val / 2048 < cfg0.N := by rw [show cfg0.N = 25 from N_0]; omega
  have e := idx_facts ⟨(i 0).val / 2048, hlt⟩
  refine ⟨⟨(i 0).val / 2048, hlt⟩, flush0_5 _, ?_⟩
  rw [mem_blk]
  intro a
  match a with
  | ⟨0, _⟩ =>
    show win0_5.index ⟨(i 0).val / 2048, hlt⟩ (0 : Fin 2) * 2048 ≤ (i 0).val
      ∧ (i 0).val < win0_5.index ⟨(i 0).val / 2048, hlt⟩ (0 : Fin 2) * 2048 + 2048
    have : (⟨(i 0).val / 2048, hlt⟩ : Fin cfg0.N).val = (i 0).val / 2048 := rfl
    omega
  | ⟨1, _⟩ =>
    show win0_5.index ⟨(i 0).val / 2048, hlt⟩ (1 : Fin 2) * 128 ≤ (i 1).val
      ∧ (i 1).val < win0_5.index ⟨(i 0).val / 2048, hlt⟩ (1 : Fin 2) * 128 + 128
    omega

/-- The region's output array after its 25 points. -/
theorem value (c : Dev nD) :
    (dat0 V c).arrAt 5 cfg0.N
      = Cert.Gnn.layerOut (V c main_v30) (V c main_v31) (V c main_v24) (V c main_v27) (V c main_v29) :=
  (dat0 V c).arrAt_eq_of_cover 5 _ (fun t _ => flushed_eq V c t) cover

end Cert.KernelIdeal.Region0

end
-- ==== Proof.Chain0.lean ====
/-
  The host operations in front of kernel region 0, and the one after kernel region 4, read at the buffers that matter.

  From the launch contents `Wx`, the stretches in front of region 0 leave: the two rows of the edge list cut out and
  flattened; the encoder's output (nine table rows summed per node) padded to 51200 rows in the region's second
  operand; its aggregated messages padded in the first; the first slices of the three weight stacks in the three
  small operands; the weight stacks themselves where they were. The long first stretch (`head`) computes everything
  but the paddings; the three short ones after it (`tail`) pad. After region 4 one operation remains: the result is
  the first 50000 rows of that region's output.
-/
import proofs.«402210_j23270132810370_3_alg».proof.Proof.Gen.KernelIdeal.Launch
import proofs.«402210_j23270132810370_3_alg».proof.Proof.Spec
import Idealize.ShloMosaic.Lib.StableHlo.Run

set_option maxRecDepth 16384
-- one declaration at a time: each opens the same long list of operations
set_option Elab.async false

noncomputable section

namespace Cert.KernelIdeal.Chain0

open Cert.KernelIdeal Cert.KernelIdeal.Gen Idealize.ShloMosaic Idealize.ShloMosaic.TcCoe Idealize.SL.Sem
open Idealize.ShloMosaic.StableHlo Cert.Gnn

variable (Wx Y : Valuation τ sig (Elt Ideal))

/-! ## The first stretch: the edge rows, the encoder, the first aggregation, the first weight slices -/

set_option maxHeartbeats 2000000 in
theorem head_src : StableHlo.after hostOps0 Wx (Proc.devRef .tc main_v1) = K.srcRow (Wx (Proc.devRef .tc main_arg1)) := by
  simp only [hostOps0]
  after_results
  rfl

set_option maxHeartbeats 2000000 in
theorem head_dst : StableHlo.after hostOps0 Wx (Proc.devRef .tc main_v3) = K.dstRow (Wx (Proc.devRef .tc main_arg1)) := by
  simp only [hostOps0]
  after_results
  rfl

set_option maxHeartbeats 2000000 in
theorem head_enc : StableHlo.after hostOps0 Wx (Proc.devRef .tc main_v12) = K.enc (Wx (Proc.devRef .tc main_arg0)) (Wx (Proc.devRef .tc main_arg3)) := by
  simp only [hostOps0]
  after_results
  rfl

set_option maxHeartbeats 2000000 in
theorem head_agg : StableHlo.after hostOps0 Wx (Proc.devRef .tc main_v22) = K.aggRows (K.enc (Wx (Proc.devRef .tc main_arg0)) (Wx (Proc.devRef .tc main_arg3))) (K.srcRow (Wx (Proc.devRef .tc main_arg1))) (K.dstRow (Wx (Proc.devRef .tc main_arg1))) := by
  simp only [hostOps0]
  after_results
  rfl

set_option maxHeartbeats 2000000 in
theorem head_zero : StableHlo.after hostOps0 Wx (Proc.devRef .tc main_c_4) = (constantI S_ 32 0#32 : (⟨S_, .i32⟩ : BufTy).Contents (Elt Ideal)) := by
  simp only [hostOps0]
  after_results

set_option maxHeartbeats 2000000 in
theorem head_wrel : StableHlo.after hostOps0 Wx (Proc.devRef .tc main_v24) = K.wAt0 (Wx (Proc.devRef .tc main_arg4)) := by
  simp only [hostOps0]
  after_results
  rfl

set_option maxHeartbeats 2000000 in
theorem head_bias : StableHlo.after hostOps0 Wx (Proc.devRef .tc main_v27) = K.oneRow (K.bVec0 (Wx (Proc.devRef .tc main_arg5))) := by
  simp only [hostOps0]
  after_results
  rfl

set_option maxHeartbeats 2000000 in
theorem head_wroot : StableHlo.after hostOps0 Wx (Proc.devRef .tc main_v29) = K.wAt0 (Wx (Proc.devRef .tc main_arg6)) := by
  simp only [hostOps0]
  after_results
  rfl

set_option maxHeartbeats 2000000 in
theorem head_keep_arg4 : StableHlo.after hostOps0 Wx (Proc.devRef .tc main_arg4) = Wx (Proc.devRef .tc main_arg4) := by
  simp only [hostOps0]
  after_results

set_option maxHeartbeats 2000000 in
theorem head_keep_arg5 : StableHlo.after hostOps0 Wx (Proc.devRef .tc main_arg5) = Wx (Proc.devRef .tc main_arg5) := by
  simp only [hostOps0]
  after_results

set_option maxHeartbeats 2000000 in
theorem head_keep_arg6 : StableHlo.after hostOps0 Wx (Proc.devRef .tc main_arg6) = Wx (Proc.devRef .tc main_arg6) := by
  simp only [hostOps0]
  after_results

/-! ## The three short stretches: the two paddings -/

/-- The contents after the three short stretches, from the contents `Y` after the first. -/
abbrev tail : Valuation τ sig (Elt Ideal) :=
  StableHlo.after hostOps0_3 (StableHlo.after hostOps0_2 (StableHlo.after hostOps0_1 Y))

/-- An array of 50000 rows with 1200 rows of a converted integer under it. -/
def padWith (x : (⟨S50000x128, .f32⟩ : BufTy).Contents (Elt Ideal)) (z : (⟨S_, .i32⟩ : BufTy).Contents (Elt Ideal)) :
    (⟨S51200x128, .f32⟩ : BufTy).Contents (Elt Ideal) :=
  pad S51200x128 ![0, 0] ![1200, 0] ![0, 0] x (sitofp (F := Ideal) .f32 z) pads_S50000x128_S51200x128_012000_000 h_S_

theorem tail_agg : tail Y (Proc.devRef .tc main_v30) = padWith (Y (Proc.devRef .tc main_v22)) (Y (Proc.devRef .tc main_c_4)) := by
  simp only [tail, hostOps0_1, hostOps0_2, hostOps0_3]
  after_results
  rfl

theorem tail_self : tail Y (Proc.devRef .tc main_v31) = padWith (Y (Proc.devRef .tc main_v12)) (constantI S_ 32 0#32) := by
  simp only [tail, hostOps0_1, hostOps0_2, hostOps0_3]
  after_results
  rfl

theorem tail_wrel : tail Y (Proc.devRef .tc main_v24) = Y (Proc.devRef .tc main_v24) := by
  simp only [tail, hostOps0_1, hostOps0_2, hostOps0_3]
  after_results

theorem tail_bias : tail Y (Proc.devRef .tc main_v27) = Y (Proc.devRef .tc main_v27) := by
  simp only [tail, hostOps0_1, hostOps0_2, hostOps0_3]
  after_results

theorem tail_wroot : tail Y (Proc.devRef .tc main_v29) = Y (Proc.devRef .tc main_v29) := by
  simp only [tail, hostOps0_1, hostOps0_2, hostOps0_3]
  after_results

theorem tail_src : tail Y (Proc.devRef .tc main_v1) = Y (Proc.devRef .tc main_v1) := by
  simp only [tail, hostOps0_1, hostOps0_2, hostOps0_3]
  after_results

theorem tail_dst : tail Y (Proc.devRef .tc main_v3) = Y (Proc.devRef .tc main_v3) := by
  simp only [tail, hostOps0_1, hostOps0_2, hostOps0_3]
  after_results

theorem tail_keep_arg4 : tail Y (Proc.devRef .tc main_arg4) = Y (Proc.devRef .tc main_arg4) := by
  simp only [tail, hostOps0_1, hostOps0_2, hostOps0_3]
  after_results

theorem tail_keep_arg5 : tail Y (Proc.devRef .tc main_arg5) = Y (Proc.devRef .tc main_arg5) := by
  simp only [tail, hostOps0_1, hostOps0_2, hostOps0_3]
  after_results

theorem tail_keep_arg6 : tail Y (Proc.devRef .tc main_arg6) = Y (Proc.devRef .tc main_arg6) := by
  simp only [tail, hostOps0_1, hostOps0_2, hostOps0_3]
  after_results

/-! ## Both together: the contents at region 0's entry -/

/-- The contents at region 0's entry, from the launch contents `Wx`. -/
abbrev into : Valuation τ sig (Elt Ideal) := tail (StableHlo.after hostOps0 Wx)

theorem agg : into Wx (Proc.devRef .tc main_v30) = K.padRows (K.aggRows (K.enc (Wx (Proc.devRef .tc main_arg0)) (Wx (Proc.devRef .tc main_arg3))) (K.srcRow (Wx (Proc.devRef .tc main_arg1))) (K.dstRow (Wx (Proc.devRef .tc main_arg1)))) := by
  rw [into, tail_agg, head_agg, head_zero]; rfl
theorem self : into Wx (Proc.devRef .tc main_v31) = K.padRows (K.enc (Wx (Proc.devRef .tc main_arg0)) (Wx (Proc.devRef .tc main_arg3))) := by
  rw [into, tail_self, head_enc]; rfl
theorem wrel : into Wx (Proc.devRef .tc main_v24) = K.wAt0 (Wx (Proc.devRef .tc main_arg4)) := by
  rw [into, tail_wrel, head_wrel]
theorem bias : into Wx (Proc.devRef .tc main_v27) = K.oneRow (K.bVec0 (Wx (Proc.devRef .tc main_arg5))) := by
  rw [into, tail_bias, head_bias]
theorem wroot : into Wx (Proc.devRef .tc main_v29) = K.wAt0 (Wx (Proc.devRef .tc main_arg6)) := by
  rw [into, tail_wroot, head_wroot]
theorem src : into Wx (Proc.devRef .tc main_v1) = K.srcRow (Wx (Proc.devRef .tc main_arg1)) := by
  rw [into, tail_src, head_src]
theorem dst : into Wx (Proc.devRef .tc main_v3) = K.dstRow (Wx (Proc.devRef .tc main_arg1)) := by
  rw [into, tail_dst, head_dst]
theorem keep_arg4 : into Wx (Proc.devRef .tc main_arg4) = Wx (Proc.devRef .tc main_arg4) := by
  rw [into, tail_keep_arg4, head_keep_arg4]
theorem keep_arg5 : into Wx (Proc.devRef .tc main_arg5) = Wx (Proc.devRef .tc main_arg5) := by
  rw [into, tail_keep_arg5, head_keep_arg5]
theorem keep_arg6 : into Wx (Proc.devRef .tc main_arg6) = Wx (Proc.devRef .tc main_arg6) := by
  rw [into, tail_keep_arg6, head_keep_arg6]

/-! ## After region 4 -/

/-- The last operation: the result is the first 50000 rows of region 4's output. -/
theorem result : StableHlo.after hostOps5 Wx (Proc.devRef .tc main_v117) = K.topRows (Wx (Proc.devRef .tc main_v116)) := by
  simp only [hostOps5]
  after_results
  rfl

end Cert.KernelIdeal.Chain0

end
-- ==== Proof.Chain1.lean ====
/-
  The host operations between kernel region 0 and kernel region 1, read at the buffers that matter.

  From any contents `Wx` of the TensorCore's buffers, the stretches of host operations in front of region 1 leave:
  in the region's first operand the aggregated messages of the previous round's output cut to 50000 rows, padded
  back to 51200; in its second operand that cut output padded; in its three small operands this round's slices of
  the weight stacks; and the two rows of the edge list and the three weight stacks where they were. The long first
  stretch (`head`) computes everything but the paddings; the three short ones after it (`tail`) pad.
-/
import proofs.«402210_j23270132810370_3_alg».proof.Proof.Gen.KernelIdeal.Launch
import proofs.«402210_j23270132810370_3_alg».proof.Proof.Spec
import Idealize.ShloMosaic.Lib.StableHlo.Run

set_option maxRecDepth 16384
-- one declaration at a time: each opens the same long list of operations
set_option Elab.async false

noncomputable section

namespace Cert.KernelIdeal.Chain1

open Cert.KernelIdeal Cert.KernelIdeal.Gen Idealize.ShloMosaic Idealize.ShloMosaic.TcCoe Idealize.SL.Sem
open Idealize.ShloMosaic.StableHlo Cert.Gnn

variable (Wx Y : Valuation τ sig (Elt Ideal))

/-! ## The first stretch: cut, aggregate, slice the weights -/

set_option maxHeartbeats 2000000 in
theorem head_cut : StableHlo.after hostOps1 Wx (Proc.devRef .tc main_v33) = K.topRows (Wx (Proc.devRef .tc main_v32)) := by
  simp only [hostOps1]
  after_results
  rfl

set_option maxHeartbeats 2000000 in
theorem head_agg : StableHlo.after hostOps1 Wx (Proc.devRef .tc main_v43) = K.aggRows (K.topRows (Wx (Proc.devRef .tc main_v32))) (Wx (Proc.devRef .tc main_v1)) (Wx (Proc.devRef .tc main_v3)) := by
  simp only [hostOps1]
  after_results
  rfl

set_option maxHeartbeats 2000000 in
theorem head_zero : StableHlo.after hostOps1 Wx (Proc.devRef .tc main_c_9) = (constantI S_ 32 0#32 : (⟨S_, .i32⟩ : BufTy).Contents (Elt Ideal)) := by
  simp only [hostOps1]
  after_results

set_option maxHeartbeats 2000000 in
theorem head_wrel : StableHlo.after hostOps1 Wx (Proc.devRef .tc main_v45) = K.wAt1 (Wx (Proc.devRef .tc main_arg4)) := by
  simp only [hostOps1]
  after_results
  rfl

set_option maxHeartbeats 2000000 in
theorem head_bias : StableHlo.after hostOps1 Wx (Proc.devRef .tc main_v48) = K.oneRow (K.bVec1 (Wx (Proc.devRef .tc main_arg5))) := by
  simp only [hostOps1]
  after_results
  rfl

set_option maxHeartbeats 2000000 in
theorem head_wroot : StableHlo.after hostOps1 Wx (Proc.devRef .tc main_v50) = K.wAt1 (Wx (Proc.devRef .tc main_arg6)) := by
  simp only [hostOps1]
  after_results
  rfl

set_option maxHeartbeats 2000000 in
theorem head_keep_src : StableHlo.after hostOps1 Wx (Proc.devRef .tc main_v1) = Wx (Proc.devRef .tc main_v1) := by
  simp only [hostOps1]
  after_results

set_option maxHeartbeats 2000000 in
theorem head_keep_dst : StableHlo.after hostOps1 Wx (Proc.devRef .tc main_v3) = Wx (Proc.devRef .tc main_v3) := by
  simp only [hostOps1]
  after_results

set_option maxHeartbeats 2000000 in
theorem head_keep_arg4 : StableHlo.after hostOps1 Wx (Proc.devRef .tc main_arg4) = Wx (Proc.devRef .tc main_arg4) := by
  simp only [hostOps1]
  after_results

set_option maxHeartbeats 2000000 in
theorem head_keep_arg5 : StableHlo.after hostOps1 Wx (Proc.devRef .tc main_arg5) = Wx (Proc.devRef .tc main_arg5) := by
  simp only [hostOps1]
  after_results

set_option maxHeartbeats 2000000 in
theorem head_keep_arg6 : StableHlo.after hostOps1 Wx (Proc.devRef .tc main_arg6) = Wx (Proc.devRef .tc main_arg6) := by
  simp only [hostOps1]
  after_results

/-! ## The three short stretches: the two paddings -/

/-- The contents after the three short stretches, from the contents `Y` after the first. -/
abbrev tail : Valuation τ sig (Elt Ideal) :=
  StableHlo.after hostOps1_3 (StableHlo.after hostOps1_2 (StableHlo.after hostOps1_1 Y))

/-- An array of 50000 rows with 1200 rows of a converted integer under it. -/
def padWith (x : (⟨S50000x128, .f32⟩ : BufTy).Contents (Elt Ideal)) (z : (⟨S_, .i32⟩ : BufTy).Contents (Elt Ideal)) :
    (⟨S51200x128, .f32⟩ : BufTy).Contents (Elt Ideal) :=
  pad S51200x128 ![0, 0] ![1200, 0] ![0, 0] x (sitofp (F := Ideal) .f32 z) pads_S50000x128_S51200x128_012000_000 h_S_

theorem tail_agg : tail Y (Proc.devRef .tc main_v51) = padWith (Y (Proc.devRef .tc main_v43)) (Y (Proc.devRef .tc main_c_9)) := by
  simp only [tail, hostOps1_1, hostOps1_2, hostOps1_3]
  after_results
  rfl

theorem tail_self : tail Y (Proc.devRef .tc main_v52) = padWith (Y (Proc.devRef .tc main_v33)) (constantI S_ 32 0#32) := by
  simp only [tail, hostOps1_1, hostOps1_2, hostOps1_3]
  after_results
  rfl

theorem tail_wrel : tail Y (Proc.devRef .tc main_v45) = Y (Proc.devRef .tc main_v45) := by
  simp only [tail, hostOps1_1, hostOps1_2, hostOps1_3]
  after_results

theorem tail_bias : tail Y (Proc.devRef .tc main_v48) = Y (Proc.devRef .tc main_v48) := by
  simp only [tail, hostOps1_1, hostOps1_2, hostOps1_3]
  after_results

theorem tail_wroot : tail Y (Proc.devRef .tc main_v50) = Y (Proc.devRef .tc main_v50) := by
  simp only [tail, hostOps1_1, hostOps1_2, hostOps1_3]
  after_results

theorem tail_keep_src : tail Y (Proc.devRef .tc main_v1) = Y (Proc.devRef .tc main_v1) := by
  simp only [tail, hostOps1_1, hostOps1_2, hostOps1_3]
  after_results

theorem tail_keep_dst : tail Y (Proc.devRef .tc main_v3) = Y (Proc.devRef .tc main_v3) := by
  simp only [tail, hostOps1_1, hostOps1_2, hostOps1_3]
  after_results

theorem tail_keep_arg4 : tail Y (Proc.devRef .tc main_arg4) = Y (Proc.devRef .tc main_arg4) := by
  simp only [tail, hostOps1_1, hostOps1_2, hostOps1_3]
  after_results

theorem tail_keep_arg5 : tail Y (Proc.devRef .tc main_arg5) = Y (Proc.devRef .tc main_arg5) := by
  simp only [tail, hostOps1_1, hostOps1_2, hostOps1_3]
  after_results

theorem tail_keep_arg6 : tail Y (Proc.devRef .tc main_arg6) = Y (Proc.devRef .tc main_arg6) := by
  simp only [tail, hostOps1_1, hostOps1_2, hostOps1_3]
  after_results

/-! ## Both together: the contents at region 1's entry -/

/-- The contents at region 1's entry, from the contents `Wx` at region 0's exit. -/
abbrev into : Valuation τ sig (Elt Ideal) := tail (StableHlo.after hostOps1 Wx)

theorem agg : into Wx (Proc.devRef .tc main_v51)
    = K.padRows (K.aggRows (K.topRows (Wx (Proc.devRef .tc main_v32))) (Wx (Proc.devRef .tc main_v1)) (Wx (Proc.devRef .tc main_v3))) := by
  rw [into, tail_agg, head_agg, head_zero]; rfl
theorem self : into Wx (Proc.devRef .tc main_v52) = K.padRows (K.topRows (Wx (Proc.devRef .tc main_v32))) := by
  rw [into, tail_self, head_cut]; rfl
theorem wrel : into Wx (Proc.devRef .tc main_v45) = K.wAt1 (Wx (Proc.devRef .tc main_arg4)) := by
  rw [into, tail_wrel, head_wrel]
theorem bias : into Wx (Proc.devRef .tc main_v48) = K.oneRow (K.bVec1 (Wx (Proc.devRef .tc main_arg5))) := by
  rw [into, tail_bias, head_bias]
theorem wroot : into Wx (Proc.devRef .tc main_v50) = K.wAt1 (Wx (Proc.devRef .tc main_arg6)) := by
  rw [into, tail_wroot, head_wroot]
theorem keep_src : into Wx (Proc.devRef .tc main_v1) = Wx (Proc.devRef .tc main_v1) := by
  rw [into, tail_keep_src, head_keep_src]
theorem keep_dst : into Wx (Proc.devRef .tc main_v3) = Wx (Proc.devRef .tc main_v3) := by
  rw [into, tail_keep_dst, head_keep_dst]
theorem keep_arg4 : into Wx (Proc.devRef .tc main_arg4) = Wx (Proc.devRef .tc main_arg4) := by
  rw [into, tail_keep_arg4, head_keep_arg4]
theorem keep_arg5 : into Wx (Proc.devRef .tc main_arg5) = Wx (Proc.devRef .tc main_arg5) := by
  rw [into, tail_keep_arg5, head_keep_arg5]
theorem keep_arg6 : into Wx (Proc.devRef .tc main_arg6) = Wx (Proc.devRef .tc main_arg6) := by
  rw [into, tail_keep_arg6, head_keep_arg6]

end Cert.KernelIdeal.Chain1

end
-- ==== Proof.KernelValue.lean ====
/-
  The kernel program's result as a function of its arguments.

  The run's last boundary holds the result buffer at the fold of the host stretches and the five kernel regions over
  the launch memory. Walking that fold: the stretches in front of a region put the previous round's output (cut to
  50000 rows), its aggregated messages and the round's weights into the region's operands; the region leaves the
  padded update of its operands in its output; nothing in between touches the edge rows or the weight stacks. Five
  rounds and the last cut give `Cert.Gnn.K.kval` of the six argument arrays the program reads.
-/
import proofs.«402210_j23270132810370_3_alg».proof.Proof.Gen.KernelIdeal.Frame
import proofs.«402210_j23270132810370_3_alg».proof.Proof.KernelRun
import proofs.«402210_j23270132810370_3_alg».proof.Proof.Spec
import proofs.«402210_j23270132810370_3_alg».proof.Proof.Region0
import proofs.«402210_j23270132810370_3_alg».proof.Proof.Region1
import proofs.«402210_j23270132810370_3_alg».proof.Proof.Region2
import proofs.«402210_j23270132810370_3_alg».proof.Proof.Region3
import proofs.«402210_j23270132810370_3_alg».proof.Proof.Region4
import proofs.«402210_j23270132810370_3_alg».proof.Proof.Chain0
import proofs.«402210_j23270132810370_3_alg».proof.Proof.Chain1
import proofs.«402210_j23270132810370_3_alg».proof.Proof.Chain2
import proofs.«402210_j23270132810370_3_alg».proof.Proof.Chain3
import proofs.«402210_j23270132810370_3_alg».proof.Proof.Chain4

set_option maxRecDepth 16384

noncomputable section

namespace Cert.KernelIdeal.KValue

open Cert.KernelIdeal Cert.KernelIdeal.Gen Idealize.ShloMosaic Idealize.ShloMosaic.TcCoe Idealize.SL.Sem
open Cert.Gnn

variable (m : (ℓ : Loc nD τ sig) → Buf (Elt Ideal) ℓ) (ρ : Dev nD → PrngReg)

/-- What every round needs besides the previous round's output, in place at a boundary: the two rows of the edge
    list and the three weight stacks. -/
structure Keeps (Wx : Valuation τ sig (Elt Ideal)) (v1 v3 : (⟨S800000, .i32⟩ : BufTy).Contents (Elt Ideal))
    (a4 : (⟨S5x128x128, .f32⟩ : BufTy).Contents (Elt Ideal)) (a5 : (⟨S5x128, .f32⟩ : BufTy).Contents (Elt Ideal))
    (a6 : (⟨S5x128x128, .f32⟩ : BufTy).Contents (Elt Ideal)) : Prop where
  src : Wx (Proc.devRef .tc main_v1) = v1
  dst : Wx (Proc.devRef .tc main_v3) = v3
  w4 : Wx (Proc.devRef .tc main_arg4) = a4
  w5 : Wx (Proc.devRef .tc main_arg5) = a5
  w6 : Wx (Proc.devRef .tc main_arg6) = a6

/-! ## Each region's entry contents are the stretches in front of it over the previous boundary -/

theorem W4_eq (c : Dev nD) : W4 m ρ c = Chain0.into (W0 m ρ c) := rfl
theorem W9_eq (c : Dev nD) : W9 m ρ c = Chain1.into (W5 m ρ c) := rfl
theorem W14_eq (c : Dev nD) : W14 m ρ c = Chain2.into (W10 m ρ c) := rfl
theorem W19_eq (c : Dev nD) : W19 m ρ c = Chain3.into (W15 m ρ c) := rfl
theorem W24_eq (c : Dev nD) : W24 m ρ c = Chain4.into (W20 m ρ c) := rfl
theorem W26_eq (c : Dev nD) : W26 m ρ c = StableHlo.after hostOps5 (W25 m ρ c) := rfl

/-! ## The rounds -/

/-- Round 0: region 0's output cut to 50000 rows is one `kstep` of the encoder's output with round 0's weights. -/
theorem round0 (c : Dev nD) :
    K.topRows (W5 m ρ c (Proc.devRef .tc main_v32))
      = K.kstep (K.enc (m ((c : Thread nD τ).loc main_arg0)) (m ((c : Thread nD τ).loc main_arg3))) (K.srcRow (m ((c : Thread nD τ).loc main_arg1))) (K.dstRow (m ((c : Thread nD τ).loc main_arg1)))
          (K.wAt0 (m ((c : Thread nD τ).loc main_arg4))) (K.bVec0 (m ((c : Thread nD τ).loc main_arg5))) (K.wAt0 (m ((c : Thread nD τ).loc main_arg6)))
      ∧ Keeps (W5 m ρ c) (K.srcRow (m ((c : Thread nD τ).loc main_arg1))) (K.dstRow (m ((c : Thread nD τ).loc main_arg1)))
          (m ((c : Thread nD τ).loc main_arg4)) (m ((c : Thread nD τ).loc main_arg5)) (m ((c : Thread nD τ).loc main_arg6)) := by
  have hout : W5 m ρ c (Proc.devRef .tc main_v32)
      = layerOut (W4 m ρ c (Proc.devRef .tc main_v30)) (W4 m ρ c (Proc.devRef .tc main_v31)) (W4 m ρ c (Proc.devRef .tc main_v24))
          (W4 m ρ c (Proc.devRef .tc main_v27)) (W4 m ρ c (Proc.devRef .tc main_v29)) :=
    (W5_arr m ρ c 5).trans (Region0.value (V4 m ρ) c)
  refine ⟨?_, ⟨?_, ?_, ?_, ?_, ?_⟩⟩
  · rw [hout, W4_eq, Chain0.agg, Chain0.self, Chain0.wrel, Chain0.bias, Chain0.wroot]
    rfl
  · rw [W5_of_ne m ρ c main_v1 (by decide), W4_eq, Chain0.src]
  · rw [W5_of_ne m ρ c main_v3 (by decide), W4_eq, Chain0.dst]
  · rw [W5_of_ne m ρ c main_arg4 (by decide), W4_eq, Chain0.keep_arg4]
  · rw [W5_of_ne m ρ c main_arg5 (by decide), W4_eq, Chain0.keep_arg5]
  · rw [W5_of_ne m ρ c main_arg6 (by decide), W4_eq, Chain0.keep_arg6]

/-- Round 1: region 1's output cut to 50000 rows is one `kstep` of the previous round's, with round 1's weights;
    the edge rows and the weight stacks are still in place at the region's exit. -/
theorem round1 (c : Dev nD) (h : (⟨S50000x128, .f32⟩ : BufTy).Contents (Elt Ideal))
    (v1 v3 : (⟨S800000, .i32⟩ : BufTy).Contents (Elt Ideal)) (a4 : (⟨S5x128x128, .f32⟩ : BufTy).Contents (Elt Ideal))
    (a5 : (⟨S5x128, .f32⟩ : BufTy).Contents (Elt Ideal)) (a6 : (⟨S5x128x128, .f32⟩ : BufTy).Contents (Elt Ideal))
    (hprev : K.topRows (W5 m ρ c (Proc.devRef .tc main_v32)) = h) (kp : Keeps (W5 m ρ c) v1 v3 a4 a5 a6) :
    K.topRows (W10 m ρ c (Proc.devRef .tc main_v53)) = K.kstep h v1 v3 (K.wAt1 a4) (K.bVec1 a5) (K.wAt1 a6)
      ∧ Keeps (W10 m ρ c) v1 v3 a4 a5 a6 := by
  have hout : W10 m ρ c (Proc.devRef .tc main_v53)
      = layerOut (W9 m ρ c (Proc.devRef .tc main_v51)) (W9 m ρ c (Proc.devRef .tc main_v52)) (W9 m ρ c (Proc.devRef .tc main_v45))
          (W9 m ρ c (Proc.devRef .tc main_v48)) (W9 m ρ c (Proc.devRef .tc main_v50)) :=
    (W10_arr m ρ c 5).trans (Region1.value (V9 m ρ) c)
  refine ⟨?_, ⟨?_, ?_, ?_, ?_, ?_⟩⟩
  · rw [hout, W9_eq, Chain1.agg, Chain1.self, Chain1.wrel, Chain1.bias, Chain1.wroot, hprev, kp.src, kp.dst, kp.w4, kp.w5, kp.w6]
    rfl
  · rw [W10_of_ne m ρ c main_v1 (by decide), W9_eq, Chain1.keep_src]; exact kp.src
  · rw [W10_of_ne m ρ c main_v3 (by decide), W9_eq, Chain1.keep_dst]; exact kp.dst
  · rw [W10_of_ne m ρ c main_arg4 (by decide), W9_eq, Chain1.keep_arg4]; exact kp.w4
  · rw [W10_of_ne m ρ c main_arg5 (by decide), W9_eq, Chain1.keep_arg5]; exact kp.w5
  · rw [W10_of_ne m ρ c main_arg6 (by decide), W9_eq, Chain1.keep_arg6]; exact kp.w6

/-- Round 2: region 2's output cut to 50000 rows is one `kstep` of the previous round's, with round 2's weights;
    the edge rows and the weight stacks are still in place at the region's exit. -/
theorem round2 (c : Dev nD) (h : (⟨S50000x128, .f32⟩ : BufTy).Contents (Elt Ideal))
    (v1 v3 : (⟨S800000, .i32⟩ : BufTy).Contents (Elt Ideal)) (a4 : (⟨S5x128x128, .f32⟩ : BufTy).Contents (Elt Ideal))
    (a5 : (⟨S5x128, .f32⟩ : BufTy).Contents (Elt Ideal)) (a6 : (⟨S5x128x128, .f32⟩ : BufTy).Contents (Elt Ideal))
    (hprev : K.topRows (W10 m ρ c (Proc.devRef .tc main_v53)) = h) (kp : Keeps (W10 m ρ c) v1 v3 a4 a5 a6) :
    K.topRows (W15 m ρ c (Proc.devRef .tc main_v74)) = K.kstep h v1 v3 (K.wAt2 a4) (K.bVec2 a5) (K.wAt2 a6)
      ∧ Keeps (W15 m ρ c) v1 v3 a4 a5 a6 := by
  have hout : W15 m ρ c (Proc.devRef .tc main_v74)
      = layerOut (W14 m ρ c (Proc.devRef .tc main_v72)) (W14 m ρ c (Proc.devRef .tc main_v73)) (W14 m ρ c (Proc.devRef .tc main_v66))
          (W14 m ρ c (Proc.devRef .tc main_v69)) (W14 m ρ c (Proc.devRef .tc main_v71)) :=
    (W15_arr m ρ c 5).trans (Region2.value (V14 m ρ) c)
  refine ⟨?_, ⟨?_, ?_, ?_, ?_, ?_⟩⟩
  · rw [hout, W14_eq, Chain2.agg, Chain2.self, Chain2.wrel, Chain2.bias, Chain2.wroot, hprev, kp.src, kp.dst, kp.w4, kp.w5, kp.w6]
    rfl
  · rw [W15_of_ne m ρ c main_v1 (by decide), W14_eq, Chain2.keep_src]; exact kp.src
  · rw [W15_of_ne m ρ c main_v3 (by decide), W14_eq, Chain2.keep_dst]; exact kp.dst
  · rw [W15_of_ne m ρ c main_arg4 (by decide), W14_eq, Chain2.keep_arg4]; exact kp.w4
  · rw [W15_of_ne m ρ c main_arg5 (by decide), W14_eq, Chain2.keep_arg5]; exact kp.w5
  · rw [W15_of_ne m ρ c main_arg6 (by decide), W14_eq, Chain2.keep_arg6]; exact kp.w6

/-- Round 3: region 3's output cut to 50000 rows is one `kstep` of the previous round's, with round 3's weights;
    the edge rows and the weight stacks are still in place at the region's exit. -/
theorem round3 (c : Dev nD) (h : (⟨S50000x128, .f32⟩ : BufTy).Contents (Elt Ideal))
    (v1 v3 : (⟨S800000, .i32⟩ : BufTy).Contents (Elt Ideal)) (a4 : (⟨S5x128x128, .f32⟩ : BufTy).Contents (Elt Ideal))
    (a5 : (⟨S5x128, .f32⟩ : BufTy).Contents (Elt Ideal)) (a6 : (⟨S5x128x128, .f32⟩ : BufTy).Contents (Elt Ideal))
    (hprev : K.topRows (W15 m ρ c (Proc.devRef .tc main_v74)) = h) (kp : Keeps (W15 m ρ c) v1 v3 a4 a5 a6) :
    K.topRows (W20 m ρ c (Proc.devRef .tc main_v95)) = K.kstep h v1 v3 (K.wAt3 a4) (K.bVec3 a5) (K.wAt3 a6)
      ∧ Keeps (W20 m ρ c) v1 v3 a4 a5 a6 := by
  have hout : W20 m ρ c (Proc.devRef .tc main_v95)
      = layerOut (W19 m ρ c (Proc.devRef .tc main_v93)) (W19 m ρ c (Proc.devRef .tc main_v94)) (W19 m ρ c (Proc.devRef .tc main_v87))
          (W19 m ρ c (Proc.devRef .tc main_v90)) (W19 m ρ c (Proc.devRef .tc main_v92)) :=
    (W20_arr m ρ c 5).trans (Region3.value (V19 m ρ) c)
  refine ⟨?_, ⟨?_, ?_, ?_, ?_, ?_⟩⟩
  · rw [hout, W19_eq, Chain3.agg, Chain3.self, Chain3.wrel, Chain3.bias, Chain3.wroot, hprev, kp.src, kp.dst, kp.w4, kp.w5, kp.w6]
    rfl
  · rw [W20_of_ne m ρ c main_v1 (by decide), W19_eq, Chain3.keep_src]; exact kp.src
  · rw [W20_of_ne m ρ c main_v3 (by decide), W19_eq, Chain3.keep_dst]; exact kp.dst
  · rw [W20_of_ne m ρ c main_arg4 (by decide), W19_eq, Chain3.keep_arg4]; exact kp.w4
  · rw [W20_of_ne m ρ c main_arg5 (by decide), W19_eq, Chain3.keep_arg5]; exact kp.w5
  · rw [W20_of_ne m ρ c main_arg6 (by decide), W19_eq, Chain3.keep_arg6]; exact kp.w6

/-- Round 4: region 4's output cut to 50000 rows is one `kstep` of the previous round's, with round 4's weights;
    the edge rows and the weight stacks are still in place at the region's exit. -/
theorem round4 (c : Dev nD) (h : (⟨S50000x128, .f32⟩ : BufTy).Contents (Elt Ideal))
    (v1 v3 : (⟨S800000, .i32⟩ : BufTy).Contents (Elt Ideal)) (a4 : (⟨S5x128x128, .f32⟩ : BufTy).Contents (Elt Ideal))
    (a5 : (⟨S5x128, .f32⟩ : BufTy).Contents (Elt Ideal)) (a6 : (⟨S5x128x128, .f32⟩ : BufTy).Contents (Elt Ideal))
    (hprev : K.topRows (W20 m ρ c (Proc.devRef .tc main_v95)) = h) (kp : Keeps (W20 m ρ c) v1 v3 a4 a5 a6) :
    K.topRows (W25 m ρ c (Proc.devRef .tc main_v116)) = K.kstep h v1 v3 (K.wAt4 a4) (K.bVec4 a5) (K.wAt4 a6)
      ∧ Keeps (W25 m ρ c) v1 v3 a4 a5 a6 := by
  have hout : W25 m ρ c (Proc.devRef .tc main_v116)
      = layerOut (W24 m ρ c (Proc.devRef .tc main_v114)) (W24 m ρ c (Proc.devRef .tc main_v115)) (W24 m ρ c (Proc.devRef .tc main_v108))
          (W24 m ρ c (Proc.devRef .tc main_v111)) (W24 m ρ c (Proc.devRef .tc main_v113)) :=
    (W25_arr m ρ c 5).trans (Region4.value (V24 m ρ) c)
  refine ⟨?_, ⟨?_, ?_, ?_, ?_, ?_⟩⟩
  · rw [hout, W24_eq, Chain4.agg, Chain4.self, Chain4.wrel, Chain4.bias, Chain4.wroot, hprev, kp.src, kp.dst, kp.w4, kp.w5, kp.w6]
    rfl
  · rw [W25_of_ne m ρ c main_v1 (by decide), W24_eq, Chain4.keep_src]; exact kp.src
  · rw [W25_of_ne m ρ c main_v3 (by decide), W24_eq, Chain4.keep_dst]; exact kp.dst
  · rw [W25_of_ne m ρ c main_arg4 (by decide), W24_eq, Chain4.keep_arg4]; exact kp.w4
  · rw [W25_of_ne m ρ c main_arg5 (by decide), W24_eq, Chain4.keep_arg5]; exact kp.w5
  · rw [W25_of_ne m ρ c main_arg6 (by decide), W24_eq, Chain4.keep_arg6]; exact kp.w6

/-! ## The result -/

/-- The result buffer at the last boundary is the network's value at the launch contents. -/
theorem result (c : Dev nD) :
    W26 m ρ c (Proc.devRef .tc main_v117)
      = K.kval (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  obtain ⟨h0, k0⟩ := round0 m ρ c
  obtain ⟨h1, k1⟩ := round1 m ρ c _ _ _ _ _ _ h0 k0
  obtain ⟨h2, k2⟩ := round2 m ρ c _ _ _ _ _ _ h1 k1
  obtain ⟨h3, k3⟩ := round3 m ρ c _ _ _ _ _ _ h2 k2
  obtain ⟨h4, -⟩ := round4 m ρ c _ _ _ _ _ _ h3 k3
  rw [W26_eq, Chain0.result, h4]
  rfl

/-- The kernel program's run: it ends with the result at the network's value and the arguments as launched. -/
theorem run : θ_run defs (onTc (τ := τ) (main (F := Ideal))) ⟨m, fun _ => 0, ρ⟩ (fun r => ∀ c : Dev nD,
      r.2.mem ((c.tc : Thread nD τ).loc main_v117)
        = K.kval (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (run_result m ρ)

end Cert.KernelIdeal.KValue

end
-- ==== Proof.RefValue.lean ====
/-
  The reference program's result, read off its run: the encoder followed by five rounds, each round two whole matrix
  products and the bias laid along every row (`Cert.Gnn.R.rval`). The run states the result as one composed term of
  the argument arrays; that term is `rval` with its definitions opened, so the two agree by unfolding.
-/
import proofs.«402210_j23270132810370_3_alg».proof.Proof.Gen.ReferenceIdeal.Run
import proofs.«402210_j23270132810370_3_alg».proof.Proof.Spec

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

variable {F : FTy → Type} [FloatOps F]

/-- The composed term the run states is the network's value at the launch contents of the six arrays it reads. -/
theorem res_eq (m : (ℓ : Loc nD τ sig) → Buf (Elt F) ℓ) (c : Dev nD) :
    res_main_v122 m c = Cert.Gnn.R.rval (F := F) (m ((c.tc : Thread nD τ).loc main_arg0)) (m ((c.tc : Thread nD τ).loc main_arg1))
      (m ((c.tc : Thread nD τ).loc main_arg3)) (m ((c.tc : Thread nD τ).loc main_arg4))
      (m ((c.tc : Thread nD τ).loc main_arg5)) (m ((c.tc : Thread nD τ).loc main_arg6)) := by
  unfold res_main_v122
  unfold Cert.Gnn.R.rval Cert.Gnn.R.rstep Cert.Gnn.R.aggRows Cert.Gnn.R.enc Cert.Gnn.R.srcRow Cert.Gnn.R.dstRow
    Cert.Gnn.R.wAt0 Cert.Gnn.R.wAt1 Cert.Gnn.R.wAt2 Cert.Gnn.R.wAt3 Cert.Gnn.R.wAt4
    Cert.Gnn.R.bVec0 Cert.Gnn.R.bVec1 Cert.Gnn.R.bVec2 Cert.Gnn.R.bVec3 Cert.Gnn.R.bVec4
  rfl

end Cert.ReferenceIdeal.RefValue

end
-- ==== Proof.Bridge.lean ====
/-
  One round of message passing is the same function of its operands in both programs, and so is the whole network.

  Entry (p, q) of the kernel program's round, p below 50000: the padded arrays' row p is the unpadded arrays' row p,
  so the padded update's entry (p, q) is  Σ_k agg(p,k)·W(k,q) + b(q) + Σ_k h(p,k)·R(k,q) ; the rows under row 50000
  are dropped. The reference's entry (p, q) is the same three terms in the same order: its two matrix products read
  as sums over the contracted coordinate, its bias laid along every row. No law of the extended reals is used beyond
  reading each operation at an index, so nothing depends on the inputs being finite.
-/
import proofs.«402210_j23270132810370_3_alg».proof.Proof.Spec
import proofs.«402210_j23270132810370_3_alg».proof.Proof.LibPlainRows
import Idealize.ShloMosaic.Lib.KernelVsHost

noncomputable section

namespace Cert.Gnn

open Idealize.ShloMosaic Idealize.ShloMosaic.ValueIdx

/-! ## The host operations both programs share are the same functions

Each program spells them over its own dimension records; the records have equal entries and their side conditions
are propositions, so each pair is one function. -/

/-- One round's aggregation. -/
theorem aggRows_eq (h : (⟨Cert.KernelIdeal.S50000x128, .f32⟩ : BufTy).Contents (Elt Ideal))
    (v1 v3 : (⟨Cert.KernelIdeal.S800000, .i32⟩ : BufTy).Contents (Elt Ideal)) :
    K.aggRows (F := Ideal) h v1 v3 = R.aggRows (F := Ideal) h v1 v3 := rfl
/-- The encoder. -/
theorem enc_eq (x : (⟨Cert.KernelIdeal.S50000x9, .i32⟩ : BufTy).Contents (Elt Ideal))
    (emb : (⟨Cert.KernelIdeal.S9x128x128, .f32⟩ : BufTy).Contents (Elt Ideal)) :
    K.enc (F := Ideal) x emb = R.enc (F := Ideal) x emb := rfl
/-- The edge list's first row. -/
theorem srcRow_eq (e : (⟨Cert.KernelIdeal.S2x800000, .i32⟩ : BufTy).Contents (Elt Ideal)) :
    K.srcRow (F := Ideal) e = R.srcRow (F := Ideal) e := rfl
/-- The edge list's second row. -/
theorem dstRow_eq (e : (⟨Cert.KernelIdeal.S2x800000, .i32⟩ : BufTy).Contents (Elt Ideal)) :
    K.dstRow (F := Ideal) e = R.dstRow (F := Ideal) e := rfl
/-- Matrix 0 of a stack of five. -/
theorem wAt0_eq (a : (⟨Cert.KernelIdeal.S5x128x128, .f32⟩ : BufTy).Contents (Elt Ideal)) :
    K.wAt0 (F := Ideal) a = R.wAt0 (F := Ideal) a := rfl
/-- Row 0 of the stack of five bias rows. -/
theorem bVec0_eq (a : (⟨Cert.KernelIdeal.S5x128, .f32⟩ : BufTy).Contents (Elt Ideal)) :
    K.bVec0 (F := Ideal) a = R.bVec0 (F := Ideal) a := rfl
/-- Matrix 1 of a stack of five. -/
theorem wAt1_eq (a : (⟨Cert.KernelIdeal.S5x128x128, .f32⟩ : BufTy).Contents (Elt Ideal)) :
    K.wAt1 (F := Ideal) a = R.wAt1 (F := Ideal) a := rfl
/-- Row 1 of the stack of five bias rows. -/
theorem bVec1_eq (a : (⟨Cert.KernelIdeal.S5x128, .f32⟩ : BufTy).Contents (Elt Ideal)) :
    K.bVec1 (F := Ideal) a = R.bVec1 (F := Ideal) a := rfl
/-- Matrix 2 of a stack of five. -/
theorem wAt2_eq (a : (⟨Cert.KernelIdeal.S5x128x128, .f32⟩ : BufTy).Contents (Elt Ideal)) :
    K.wAt2 (F := Ideal) a = R.wAt2 (F := Ideal) a := rfl
/-- Row 2 of the stack of five bias rows. -/
theorem bVec2_eq (a : (⟨Cert.KernelIdeal.S5x128, .f32⟩ : BufTy).Contents (Elt Ideal)) :
    K.bVec2 (F := Ideal) a = R.bVec2 (F := Ideal) a := rfl
/-- Matrix 3 of a stack of five. -/
theorem wAt3_eq (a : (⟨Cert.KernelIdeal.S5x128x128, .f32⟩ : BufTy).Contents (Elt Ideal)) :
    K.wAt3 (F := Ideal) a = R.wAt3 (F := Ideal) a := rfl
/-- Row 3 of the stack of five bias rows. -/
theorem bVec3_eq (a : (⟨Cert.KernelIdeal.S5x128, .f32⟩ : BufTy).Contents (Elt Ideal)) :
    K.bVec3 (F := Ideal) a = R.bVec3 (F := Ideal) a := rfl
/-- Matrix 4 of a stack of five. -/
theorem wAt4_eq (a : (⟨Cert.KernelIdeal.S5x128x128, .f32⟩ : BufTy).Contents (Elt Ideal)) :
    K.wAt4 (F := Ideal) a = R.wAt4 (F := Ideal) a := rfl
/-- Row 4 of the stack of five bias rows. -/
theorem bVec4_eq (a : (⟨Cert.KernelIdeal.S5x128, .f32⟩ : BufTy).Contents (Elt Ideal)) :
    K.bVec4 (F := Ideal) a = R.bVec4 (F := Ideal) a := rfl

/-! ## The kernel program's round at an entry -/

/-- Row `p` of the padded array, `p` below 50000, is row `p` of the array: the padding lies under row 50000. -/
theorem padRows_apply (x : (⟨Cert.KernelIdeal.S50000x128, .f32⟩ : BufTy).Contents (Elt Ideal)) (p : Fin 50000) (k : Fin 128)
    (hp : p.val < 51200) : K.padRows (F := Ideal) x (ix2 (⟨p.val, hp⟩ : Fin 51200) k) = x (ix2 p k) := by
  unfold K.padRows
  refine pad_apply_of_inside _ _ _ x _ _ _ _ (ix2 p k) ?_
  intro a
  match a with
  | ⟨0, _⟩ => show p.val = 0 + p.val * (0 + 1); omega
  | ⟨1, _⟩ => show k.val = 0 + k.val * (0 + 1); omega

/-- The one-row form of a vector at column `q` is the vector's entry `q`: both sit at row-major position `q`. -/
theorem oneRow_apply (b : (⟨Cert.KernelIdeal.S128, .f32⟩ : BufTy).Contents (Elt Ideal)) (q : Fin 128) :
    K.oneRow (F := Ideal) b (ix2 (0 : Fin 1) q) = b (ix1 q) := by
  unfold K.oneRow
  refine shapeCast_apply b _ (ix2 (0 : Fin 1) q) (ix1 q) ?_
  rw [Shape.rowMajor_val_two, Shape.rowMajor_val_one]
  show q.val = 0 * 128 + q.val
  omega

/-- The first 50000 rows at `(p, q)`: the array at `(p, q)`. -/
theorem topRows_apply (y : (⟨Cert.KernelIdeal.S51200x128, .f32⟩ : BufTy).Contents (Elt Ideal)) (p : Fin 50000) (q : Fin 128)
    (hp : p.val < 51200) : K.topRows (F := Ideal) y (ix2 p q) = y (ix2 (⟨p.val, hp⟩ : Fin 51200) q) := by
  unfold K.topRows
  refine extractStridedSlice_apply _ y _ (ix2 p q) (ix2 (⟨p.val, hp⟩ : Fin 51200) q) ?_
  intro a
  match a with
  | ⟨0, _⟩ => show p.val = 0 + p.val; omega
  | ⟨1, _⟩ => show q.val = 0 + q.val; omega

/-- The kernel program's round at `(p, q)`: the padded update's entry `(p, q)`, whose two sums read the padded
    operands' row `p`, that is the unpadded operands' row `p`. -/
theorem kstep_apply (h : (⟨Cert.KernelIdeal.S50000x128, .f32⟩ : BufTy).Contents (Elt Ideal))
    (v1 v3 : (⟨Cert.KernelIdeal.S800000, .i32⟩ : BufTy).Contents (Elt Ideal))
    (W : (⟨Cert.KernelIdeal.S128x128, .f32⟩ : BufTy).Contents (Elt Ideal))
    (b : (⟨Cert.KernelIdeal.S128, .f32⟩ : BufTy).Contents (Elt Ideal))
    (Rt : (⟨Cert.KernelIdeal.S128x128, .f32⟩ : BufTy).Contents (Elt Ideal)) (p : Fin 50000) (q : Fin 128) :
    K.kstep h v1 v3 W b Rt (ix2 p q)
      = (∑ k : Fin 128, K.aggRows (F := Ideal) h v1 v3 (ix2 p k) * W (ix2 k q)) + b (ix1 q)
        + ∑ k : Fin 128, h (ix2 p k) * Rt (ix2 k q) := by
  have hp : p.val < 51200 := by have := p.isLt; omega
  have e1 : (∑ k : Fin 128, K.padRows (F := Ideal) (K.aggRows (F := Ideal) h v1 v3) (ix2 (⟨p.val, hp⟩ : Fin 51200) k) * W (ix2 k q))
      = ∑ k : Fin 128, K.aggRows (F := Ideal) h v1 v3 (ix2 p k) * W (ix2 k q) :=
    Finset.sum_congr rfl fun k _ => by rw [padRows_apply _ p k hp]
  have e2 : (∑ k : Fin 128, K.padRows (F := Ideal) h (ix2 (⟨p.val, hp⟩ : Fin 51200) k) * Rt (ix2 k q))
      = ∑ k : Fin 128, h (ix2 p k) * Rt (ix2 k q) :=
    Finset.sum_congr rfl fun k _ => by rw [padRows_apply _ p k hp]
  unfold K.kstep
  rw [topRows_apply _ p q hp]
  show (∑ k : Fin 128, K.padRows (F := Ideal) (K.aggRows (F := Ideal) h v1 v3) (ix2 (⟨p.val, hp⟩ : Fin 51200) k) * W (ix2 k q))
      + K.oneRow (F := Ideal) b (ix2 (0 : Fin 1) q)
      + (∑ k : Fin 128, K.padRows (F := Ideal) h (ix2 (⟨p.val, hp⟩ : Fin 51200) k) * Rt (ix2 k q)) = _
  rw [e1, e2, oneRow_apply b q]

/-! ## The reference's round at an entry -/

/-- The reference's round at `(p, q)`: each matrix product is the sum over the contracted coordinate, and the bias
    laid along every row is its entry `q`. -/
theorem rstep_apply (h : (⟨Cert.KernelIdeal.S50000x128, .f32⟩ : BufTy).Contents (Elt Ideal))
    (v1 v3 : (⟨Cert.KernelIdeal.S800000, .i32⟩ : BufTy).Contents (Elt Ideal))
    (W : (⟨Cert.KernelIdeal.S128x128, .f32⟩ : BufTy).Contents (Elt Ideal))
    (b : (⟨Cert.KernelIdeal.S128, .f32⟩ : BufTy).Contents (Elt Ideal))
    (Rt : (⟨Cert.KernelIdeal.S128x128, .f32⟩ : BufTy).Contents (Elt Ideal)) (p : Fin 50000) (q : Fin 128) :
    R.rstep (F := Ideal) h v1 v3 W b Rt (ix2 p q)
      = (∑ k : Fin 128, R.aggRows (F := Ideal) h v1 v3 (ix2 p k) * W (ix2 k q)) + b (ix1 q)
        + ∑ k : Fin 128, h (ix2 p k) * Rt (ix2 k q) := by
  unfold R.rstep
  rw [addf_apply, addf_apply,
    PlainRows.dotGeneral_rows_apply Cert.ReferenceIdeal.dot_S50000x128_S128x128_S50000x128_1_0_0_1_n_n rfl none
      (R.aggRows (F := Ideal) h v1 v3) W p q,
    PlainRows.dotGeneral_rows_apply Cert.ReferenceIdeal.dot_S50000x128_S128x128_S50000x128_1_0_0_1_n_n rfl none h Rt p q,
    PlainRows.rowBroadcast_apply b _ _ p q]

/-! ## The two programs -/

/-- One round: the kernel program's padded, blockwise update cut back to 50000 rows is the reference's update. -/
theorem kstep_eq_rstep (h : (⟨Cert.KernelIdeal.S50000x128, .f32⟩ : BufTy).Contents (Elt Ideal))
    (v1 v3 : (⟨Cert.KernelIdeal.S800000, .i32⟩ : BufTy).Contents (Elt Ideal))
    (W : (⟨Cert.KernelIdeal.S128x128, .f32⟩ : BufTy).Contents (Elt Ideal))
    (b : (⟨Cert.KernelIdeal.S128, .f32⟩ : BufTy).Contents (Elt Ideal))
    (R : (⟨Cert.KernelIdeal.S128x128, .f32⟩ : BufTy).Contents (Elt Ideal)) :
    K.kstep h v1 v3 W b R = Cert.Gnn.R.rstep (F := Ideal) h v1 v3 W b R := by
  funext j
  obtain ⟨p, q, rfl⟩ : ∃ (p : Fin 50000) (q : Fin 128), j = ix2 p q := ⟨j 0, j 1, eq_ix2 j⟩
  rw [kstep_apply, rstep_apply, aggRows_eq]

/-- The whole network: encoder and five rounds. -/
theorem kval_eq_rval (x : (⟨Cert.KernelIdeal.S50000x9, .i32⟩ : BufTy).Contents (Elt Ideal))
    (e : (⟨Cert.KernelIdeal.S2x800000, .i32⟩ : BufTy).Contents (Elt Ideal))
    (emb : (⟨Cert.KernelIdeal.S9x128x128, .f32⟩ : BufTy).Contents (Elt Ideal))
    (a4 : (⟨Cert.KernelIdeal.S5x128x128, .f32⟩ : BufTy).Contents (Elt Ideal))
    (a5 : (⟨Cert.KernelIdeal.S5x128, .f32⟩ : BufTy).Contents (Elt Ideal))
    (a6 : (⟨Cert.KernelIdeal.S5x128x128, .f32⟩ : BufTy).Contents (Elt Ideal)) :
    K.kval x e emb a4 a5 a6 = R.rval (F := Ideal) x e emb a4 a5 a6 := by
  unfold K.kval R.rval
  rw [kstep_eq_rstep, kstep_eq_rstep, kstep_eq_rstep, kstep_eq_rstep, kstep_eq_rstep,
    enc_eq, srcRow_eq, dstRow_eq,
    wAt0_eq a4, wAt1_eq a4, wAt2_eq a4, wAt3_eq a4, wAt4_eq a4,
    bVec0_eq, bVec1_eq, bVec2_eq, bVec3_eq, bVec4_eq,
    wAt0_eq a6, wAt1_eq a6, wAt2_eq a6, wAt3_eq a6, wAt4_eq a6]

end Cert.Gnn

end
-- ==== Proof.lean ====
/-
  The certificate of a five-round graph network's kernel program against its reference, over the extended reals.

  Both programs encode every node as the sum of nine table rows and then run five rounds of message passing; a
  round's new node vectors are  agg · W + b + h · R  with agg the messages summed at their destinations. The
  reference computes the round with two whole matrix products. The kernel program pads agg and h with zero rows to
  51200 rows, lets a kernel compute the update 2048 rows at a time (its operands cast to a narrower format in front
  of each product, which changes nothing on the extended reals; each product accumulated into zero, so a plain sum),
  and keeps the first 50000 rows. Entry by entry the two rounds are the same three terms in the same order, so the
  results agree with no appeal to finiteness.

  The kernel program's run and value: Proof/KernelRun.lean (the run with the result buffer read at the last
  boundary), Proof/Region0 … Region4 (what each kernel region leaves in its output), Proof/Chain0 … Chain4 (the host
  operations in front of each region), Proof/KernelValue.lean (the five rounds threaded). The reference's value:
  Proof/RefValue.lean. The mathematics between them: Proof/Bridge.lean over Proof/Spec.lean. The idealization
  rewrote no operation, so `preserves` is trivial.
-/
import proofs.«402210_j23270132810370_3_alg».proof.Defs
import proofs.«402210_j23270132810370_3_alg».proof.Proof.Gen.Kernel
import proofs.«402210_j23270132810370_3_alg».proof.Proof.Gen.Kernel.Skeleton
import proofs.«402210_j23270132810370_3_alg».proof.Proof.Gen.Kernel.Launch
import proofs.«402210_j23270132810370_3_alg».proof.Proof.Gen.Kernel.Points
import proofs.«402210_j23270132810370_3_alg».proof.Proof.Gen.Kernel.Frame
import proofs.«402210_j23270132810370_3_alg».proof.Proof.Gen.KernelIdeal
import proofs.«402210_j23270132810370_3_alg».proof.Proof.Gen.KernelIdeal.Skeleton
import proofs.«402210_j23270132810370_3_alg».proof.Proof.Gen.KernelIdeal.Launch
import proofs.«402210_j23270132810370_3_alg».proof.Proof.Gen.KernelIdeal.Points
import proofs.«402210_j23270132810370_3_alg».proof.Proof.Gen.KernelIdeal.Frame
import proofs.«402210_j23270132810370_3_alg».proof.Proof.Gen.ReferenceIdeal
import proofs.«402210_j23270132810370_3_alg».proof.Proof.Gen.ReferenceIdeal.Run
import proofs.«402210_j23270132810370_3_alg».proof.Proof.Gen.Pre_finite_inputs
import proofs.«402210_j23270132810370_3_alg».proof.Proof.KernelValue
import proofs.«402210_j23270132810370_3_alg».proof.Proof.RefValue
import proofs.«402210_j23270132810370_3_alg».proof.Proof.Bridge
import Idealize.ShloMosaic.Adequacy
import Idealize.ShloMosaic.Init

noncomputable section

namespace Cert.Proof

open Idealize.ShloMosaic Idealize.SL.Sem

/-- The kernel program as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at the network's value: the kernel program at
    `kval`, the reference at `rval`, of the same six arrays, and the two are one function. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, -, e3, e4, e5, e6⟩ := hagree c
  rw [Cert.ReferenceIdeal.RefValue.res_eq, e0, e1, e3, e4, e5, e6]
  exact (Cert.Gnn.kval_eq_rval _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
